-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x2 : Shape := ⟨2, ![1000000, 2]⟩
abbrev S1000000x1 : Shape := ⟨2, ![1000000, 1]⟩
abbrev S1000000 : Shape := ⟨1, ![1000000]⟩
abbrev S128 : Shape := ⟨1, ![128]⟩
abbrev S1x128 : Shape := ⟨2, ![1, 128]⟩
abbrev S1000000x128 : Shape := ⟨2, ![1000000, 128]⟩
abbrev S_ : Shape := ⟨0, ![]⟩

class Facts : Prop where
  slices_S1000000x2_S1000000x1_0_1 : S1000000x2.Slices ![0, 1] S1000000x1
  shapeCasts_S1000000x1_S1000000 : S1000000x1.ShapeCasts S1000000
  bcast_S1000000_S1000000x1_0 : S1000000.BroadcastsInDim S1000000x1 (![0] : Fin 1 → Fin S1000000x1.rank)
  bcast_S128_S1x128_1 : S128.BroadcastsInDim S1x128 (![1] : Fin 1 → Fin S1x128.rank)
  bcast_S1000000x1_S1000000x128_0_1 : S1000000x1.BroadcastsInDim S1000000x128 (![0, 1] : Fin 2 → Fin S1000000x128.rank)
  bcast_S1x128_S1000000x128_0_1 : S1x128.BroadcastsInDim S1000000x128 (![0, 1] : Fin 2 → Fin S1000000x128.rank)
  natLt_1_32 : 1 < 32
  reducesTo_S1000000x128_S128_d0 : S1000000x128.ReducesTo [0] S128
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S1000000x64 .f32) (main_arg1 : IVec S1000000x2 32) : IVec S_ 1 :=
  let main_v0 : IVec S1000000x1 32 := (extractStridedSlice S1000000x1 ![0, 1] · slices_S1000000x2_S1000000x1_0_1) main_arg1
  let main_v1 : IVec S1000000 32 := shapeCast S1000000 main_v0 shapeCasts_S1000000x1_S1000000
  let main_v2 : IVec S1000000x1 32 := broadcastInDim S1000000x1 ![0] bcast_S1000000_S1000000x1_0 main_v1
  let main_v3 : IVec S128 32 := iotaInDim S128 32 0
  let main_v4 : IVec S1x128 32 := broadcastInDim S1x128 ![1] bcast_S128_S1x128_1 main_v3
  let main_v5 : IVec S1000000x128 32 := broadcastInDim S1000000x128 ![0, 1] bcast_S1000000x1_S1000000x128_0_1 main_v2
  let main_v6 : IVec S1000000x128 32 := broadcastInDim S1000000x128 ![0, 1] bcast_S1x128_S1000000x128_0_1 main_v4
  let main_v7 : IVec S1000000x128 1 := cmpi .eq main_v5 main_v6
  let main_v8 : IVec S1000000x128 32 := (extui 32 · natLt_1_32) main_v7
  let main_c : IVec S_ 32 := constantI S_ 32 0#32
  let main_v9 : IVec S128 32 := (fun x v => Host.reduce IntOp.addi x v reducesTo_S1000000x128_S128_d0 h_S_) main_v8 main_c
  let main_v10 : FVec F S1000000x64 .f32 := Host.absf main_arg0
  let main_cst : FVec F S_ .f32 := constant S_ .f32 0x7F800000#32
  let main_v11 : FVec F S1000000x64 .f32 := broadcastInDim S1000000x64 ![] bcast_S_S1000000x64 main_cst
  let main_v12 : IVec S1000000x64 1 := cmpf .olt main_v10 main_v11
  let main_c_0 : IVec S_ 1 := constantI S_ 1 1#1
  let main_v13 : IVec S_ 1 := (fun x v => Host.reduce IntOp.andi x v reducesTo_S1000000x64_S_d0_1 h_S_) main_v12 main_c_0
  let main_c_1 : IVec S_ 32 := constantI S_ 32 1#32
  let main_v14 : IVec S128 32 := broadcastInDim S128 ![] bcast_S_S128 main_c_1
  let main_v15 : IVec S128 1 := cmpi .sge main_v9 main_v14
  let main_c_2 : IVec S_ 1 := constantI S_ 1 1#1
  let main_v16 : IVec S_ 1 := (fun x v => Host.reduce IntOp.andi x v reducesTo_S128_S_d0 h_S_) main_v15 main_c_2
  let main_v17 : IVec S_ 1 := andi main_v13 main_v16
  main_v17
-- ==== Kernel.lean ====
abbrev S1000000x64 : Shape := ⟨2, ![1000000, 64]⟩
abbrev S1000000x2 : Shape := ⟨2, ![1000000, 2]⟩
abbrev S1000000x1 : Shape := ⟨2, ![1000000, 1]⟩
abbrev S2x128x64 : Shape := ⟨3, ![2, 128, 64]⟩
abbrev S2x1x128 : Shape := ⟨3, ![2, 1, 128]⟩
abbrev S10000x64 : Shape := ⟨2, ![10000, 64]⟩
abbrev S10000x1 : Shape := ⟨2, ![10000, 1]⟩
abbrev S1x128x64 : Shape := ⟨3, ![1, 128, 64]⟩
abbrev S1x1x128 : Shape := ⟨3, ![1, 1, 128]⟩
abbrev S10000x128 : Shape := ⟨2, ![10000, 128]⟩
abbrev S128x64 : Shape := ⟨2, ![128, 64]⟩
abbrev S128 : Shape := ⟨1, ![128]⟩
abbrev S1x128 : Shape := ⟨2, ![1, 128]⟩
abbrev S_ : Shape := ⟨0, ![]⟩
abbrev S128x1 : Shape := ⟨2, ![128, 1]⟩
abbrev S10000 : Shape := ⟨1, ![10000]⟩
abbrev S64x128 : Shape := ⟨2, ![64, 128]⟩
abbrev S128x128 : Shape := ⟨2, ![128, 128]⟩

abbrev nBuf : Space → Nat
  | .hbm => 31
  | .vmem => 17
  | .smem => 0
  | _ => 0

abbrev bufTy : (tb : Table) → Fin (tcTables nBuf tb) → BufTy
  | .hbm, ⟨0, _⟩ => ⟨S1000000x64, .f32⟩
  | .hbm, ⟨1, _⟩ => ⟨S1000000x2, .i32⟩
  | .hbm, ⟨2, _⟩ => ⟨S1000000x1, .i32⟩
  | .hbm, ⟨3, _⟩ => ⟨S2x128x64, .f32⟩
  | .hbm, ⟨4, _⟩ => ⟨S2x1x128, .f32⟩
  | .hbm, ⟨5, _⟩ => ⟨S_, .f32⟩
  | .hbm, ⟨6, _⟩ => ⟨S128x64, .f32⟩
  | .hbm, ⟨7, _⟩ => ⟨S_, .f32⟩
  | .hbm, ⟨8, _⟩ => ⟨S1x128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S128x64, .f32⟩
  | .hbm, ⟨15, _⟩ => ⟨S128x64, .f32⟩
  | .hbm, ⟨16, _⟩ => ⟨S2x1x128, .f32⟩
  | .hbm, ⟨17, _⟩ => ⟨S_, .f32⟩
  | .hbm, ⟨18, _⟩ => ⟨S1x128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S10000x64, .f32⟩
  | .local _ .vmem, ⟨1, _⟩ => ⟨S10000x64, .f32⟩
  | .local _ .vmem, ⟨2, _⟩ => ⟨S10000x1, .i32⟩
  | .local _ .vmem, ⟨3, _⟩ => ⟨S10000x1, .i32⟩
  | .local _ .vmem, ⟨4, _⟩ => ⟨S1x128x64, .f32⟩
  | .local _ .vmem, ⟨5, _⟩ => ⟨S1x128x64, .f32⟩
  | .local _ .vmem, ⟨6, _⟩ => ⟨S1x1x128, .f32⟩
  | .local _ .vmem, ⟨7, _⟩ => ⟨S1x1x128, .f32⟩
  | .local _ .vmem, ⟨8, _⟩ => ⟨S10000x64, .f32⟩
  | .local _ .vmem, ⟨9, _⟩ => ⟨S10000x64, .f32⟩
  | .local _ .vmem, ⟨10, _⟩ => ⟨S10000x1, .i32⟩
  | .local _ .vmem, ⟨11, _⟩ => ⟨S10000x1, .i32⟩
  | .local _ .vmem, ⟨12, _⟩ => ⟨S128x64, .f32⟩
  | .local _ .vmem, ⟨13, _⟩ => ⟨S1x1x128, .f32⟩
  | .local _ .vmem, ⟨14, _⟩ => ⟨S1x1x128, .f32⟩
  | .local _ .vmem, ⟨15, _⟩ => ⟨S128x64, .f32⟩
  | .local _ .vmem, ⟨16, _⟩ => ⟨S128x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg1_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem1_0 : DmaSem sig := 16

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 50], ![false, false]⟩

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S10000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S1000000x2_S1000000x1_0_1 : S1000000x2.Slices ![0, 1] S1000000x1
  inb_S1x128x64_S1x128x64_0_0_0 : ∀ a, (![0, 0, 0] : Fin 3 → Nat) a + S1x128x64.size a ≤ S1x128x64.size a
  h_S1x128x64 : 0 < S1x128x64.numel
  inb_S1x1x128_S1x1x128_0_0_0 : ∀ a, (![0, 0, 0] : Fin 3 → Nat) a + S1x1x128.size a ≤ S1x1x128.size a
  h_S1x1x128 : 0 < S1x1x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  reduces_S10000x128_S128 : S10000x128.Reduces [0] S128
  shapeCasts_S128_S1x128 : S128.ShapeCasts S1x128
  shapeCasts_S1x128x64_S1x128x64 : S1x128x64.ShapeCasts S1x128x64
  shapeCasts_S128x64_S1x128x64 : S128x64.ShapeCasts S1x128x64
  shapeCasts_S1x1x128_S1x1x128 : S1x1x128.ShapeCasts S1x1x128
  shapeCasts_S1x128_S1x1x128 : S1x128.ShapeCasts S1x1x128
  reducesTo_S2x128x64_S128x64_d0 : S2x128x64.ReducesTo [0] S128x64
  h_S_ : 0 < S_.numel
  reducesTo_S2x1x128_S1x128_d0 : S2x1x128.ReducesTo [0] S1x128
  shapeCasts_S1x128_S128 : S1x128.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S10000x64_S10000 : S10000x64.Reduces [1] S10000
  shapeCasts_S10000_S10000x1 : S10000.ShapeCasts S10000x1
  reducesTo_S128_S_d0 : S128.ReducesTo [0] S_
  transposes_S128x64_p1_0_S64x128 : S128x64.Transposes [1, 0] S64x128
  reduces_S128x64_S128 : S128x64.Reduces [1] S128
  shapeCasts_S128_S128x1 : S128.ShapeCasts S128x1
  transposes_S128x1_p1_0_S1x128 : S128x1.Transposes [1, 0] S1x128
  broadcasts_S128x1_S128x128 : S128x1.Broadcasts S128x128
  broadcasts_S1x128_S128x128 : S1x128.Broadcasts S128x128
  iota_S128x128_d0_w32 : S128x128.Iotas .tc 32 [0]
  iota_S128x128_d1_w32 : S128x128.Iotas .tc 32 [1]
  reduces_S128x128_S128 : S128x128.Reduces [1] S128
  inb_S128x1_S128x1_0_0 : ∀ a, (![0, 0] : Fin 2 → Nat) a + S128x1.size a ≤ S128x1.size a
  h_S128x1 : 0 < S128x1.numel
  reducesTo_S128x1_S_d0_1 : S128x1.ReducesTo [0, 1] S_
  dot_S10000x128_S10000x64_S128x64_0_0_1_1_n_n_wf : DotDims.WF S10000x128 S10000x64 S128x64 [0] [0] [1] [1] [] []
  dot_S10000x128_S128x64_S10000x64_1_0_0_1_n_n_wf : DotDims.WF S10000x128 S128x64 S10000x64 [1] [0] [0] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1000000x1.size a
  hwx0_1 : ∀ i : grid0.Coords, EltTy.bits .i32 = 32 ∨ (Rect.block (s := S1000000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S2x128x64.size a
  hwx0_2 : ∀ i : grid0.Coords, EltTy.bits .f32 = 32 ∨ (Rect.block (s := S2x128x64) S1x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1000000x1.size a
  hwx1_1 : ∀ i : grid1.Coords, EltTy.bits .i32 = 32 ∨ (Rect.block (s := S1000000x1) S10000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S128x64.size a
  hwx2_0 : ∀ i : grid2.Coords, EltTy.bits .f32 = 32 ∨ (Rect.block (s := S128x64) S128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)

variable [Facts₀]

def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S128x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v16) S128x1.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S1000000x64 : Shape := ⟨2, ![1000000, 64]⟩
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S128 : Shape := ⟨1, ![128]⟩
abbrev S128x64 : Shape := ⟨2, ![128, 64]⟩
abbrev S128x1 : Shape := ⟨2, ![128, 1]⟩
abbrev S128x1x64 : Shape := ⟨3, ![128, 1, 64]⟩
abbrev S1x128x64 : Shape := ⟨3, ![1, 128, 64]⟩
abbrev S128x128x64 : Shape := ⟨3, ![128, 128, 64]⟩
abbrev S128x128 : Shape := ⟨2, ![128, 128]⟩

abbrev nBuf : Space → Nat
  | .hbm => 82
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x2, .i32⟩
  | .hbm, ⟨2, _⟩ => ⟨S1000000x1, .i32⟩
  | .hbm, ⟨3, _⟩ => ⟨S1000000, .i32⟩
  | .hbm, ⟨4, _⟩ => ⟨S_, .f32⟩
  | .hbm, ⟨5, _⟩ => ⟨S1000000, .f32⟩
  | .hbm, ⟨6, _⟩ => ⟨S_, .f32⟩
  | .hbm, ⟨7, _⟩ => ⟨S128, .f32⟩
  | .hbm, ⟨8, _⟩ => ⟨S1000000x1, .i32⟩
  | .hbm, ⟨9, _⟩ => ⟨S128, .f32⟩
  | .hbm, ⟨10, _⟩ => ⟨S_, .f32⟩
  | .hbm, ⟨11, _⟩ => ⟨S128x64, .f32⟩
  | .hbm, ⟨12, _⟩ => ⟨S1000000x1, .i32⟩
  | .hbm, ⟨13, _⟩ => ⟨S128x64, .f32⟩
  | .hbm, ⟨14, _⟩ => ⟨S128x1, .f32⟩
  | .hbm, ⟨15, _⟩ => ⟨S128x64, .f32⟩
  | .hbm, ⟨16, _⟩ => ⟨S128x64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x64, .f32⟩
  | .hbm, ⟨27, _⟩ => ⟨S1000000x64, .f32⟩
  | .hbm, ⟨28, _⟩ => ⟨S_, .f32⟩
  | .hbm, ⟨29, _⟩ => ⟨S1000000, .f32⟩
  | .hbm, ⟨30, _⟩ => ⟨S1000000, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S_, .f32⟩
  | .hbm, ⟨35, _⟩ => ⟨S1000000, .f32⟩
  | .hbm, ⟨36, _⟩ => ⟨S1000000, .f32⟩
  | .hbm, ⟨37, _⟩ => ⟨S1000000, .f32⟩
  | .hbm, ⟨38, _⟩ => ⟨S_, .f32⟩
  | .hbm, ⟨39, _⟩ => ⟨S128, .f32⟩
  | .hbm, ⟨40, _⟩ => ⟨S1000000x1, .i32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S128x1x64, .f32⟩
  | .hbm, ⟨48, _⟩ => ⟨S1x128x64, .f32⟩
  | .hbm, ⟨49, _⟩ => ⟨S128x128x64, .f32⟩
  | .hbm, ⟨50, _⟩ => ⟨S128x128x64, .f32⟩
  | .hbm, ⟨51, _⟩ => ⟨S128x128x64, .f32⟩
  | .hbm, ⟨52, _⟩ => ⟨S128x128x64, .f32⟩
  | .hbm, ⟨53, _⟩ => ⟨S_, .f32⟩
  | .hbm, ⟨54, _⟩ => ⟨S128x128, .f32⟩
  | .hbm, ⟨55, _⟩ => ⟨S128x128, .i32⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S_, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S_, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_call2_v0 : Ref sig .tc := ⟨.hbm, 62, rfl⟩
abbrev main_call2_v1 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_call3_cst : Ref sig .tc := ⟨.hbm, 69, rfl⟩
abbrev main_call3_v0 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_call4_v0 : Ref sig .tc := ⟨.hbm, 74, rfl⟩
abbrev main_call4_v1 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  slices_S1000000x2_S1000000x1_0_1 : S1000000x2.Slices ![0, 1] S1000000x1
  shapeCasts_S1000000x1_S1000000 : S1000000x1.ShapeCasts S1000000
  bcast_S_S1000000 : S_.BroadcastsInDim S1000000 (![] : Fin 0 → Fin S1000000.rank)
  bcast_S_S128 : S_.BroadcastsInDim S128 (![] : Fin 0 → Fin S128.rank)
  bcast_S1000000_S1000000x1_0 : S1000000.BroadcastsInDim S1000000x1 (![0] : Fin 1 → Fin S1000000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  reducesTo_S1000000x64_S1000000_d1 : S1000000x64.ReducesTo [1] S1000000
  h_S_ : 0 < S_.numel
  reducesTo_S128_S_d0 : S128.ReducesTo [0] S_
  bcast_S128x64_S128x1x64_0_2 : S128x64.BroadcastsInDim S128x1x64 (![0, 2] : Fin 2 → Fin S128x1x64.rank)
  bcast_S128x64_S1x128x64_1_2 : S128x64.BroadcastsInDim S1x128x64 (![1, 2] : Fin 2 → Fin S1x128x64.rank)
  bcast_S128x1x64_S128x128x64_0_1_2 : S128x1x64.BroadcastsInDim S128x128x64 (![0, 1, 2] : Fin 3 → Fin S128x128x64.rank)
  bcast_S1x128x64_S128x128x64_0_1_2 : S1x128x64.BroadcastsInDim S128x128x64 (![0, 1, 2] : Fin 3 → Fin S128x128x64.rank)
  reducesTo_S128x128x64_S128x128_d2 : S128x128x64.ReducesTo [2] S128x128
  bcast_S_S128x128 : S_.BroadcastsInDim S128x128 (![] : Fin 0 → Fin S128x128.rank)
  reducesTo_S128x128_S_d0_1 : S128x128.ReducesTo [0, 1] S_
  scatter_S128_S1000000x1_S1000000_n_0_0_1_wf : ScatterDims.WF S128 S1000000x1 S1000000 [] [0] [0] 1
  scatter_S128x64_S1000000x1_S1000000x64_1_0_0_1_wf : ScatterDims.WF S128x64 S1000000x1 S1000000x64 [1] [0] [0] 1
  gather_S128x64_S1000000x1_S1000000x64_1_0_n_n_0_1_164_wf : GatherDims.WF S128x64 S1000000x1 S1000000x64 [1] [0] [] [0] [] 1 ![1, 64]

variable [Facts₀]

def scatter_S128_S1000000x1_S1000000_n_0_0_1 : ScatterDims S128 S1000000x1 S1000000 where
  updateWindowDims := []
  insertedWindowDims := [0]
  scatterDimsToOperandDims := [0]
  indexVectorDim := 1
  wf := scatter_S128_S1000000x1_S1000000_n_0_0_1_wf
def scatter_S128x64_S1000000x1_S1000000x64_1_0_0_1 : ScatterDims S128x64 S1000000x1 S1000000x64 where
  updateWindowDims := [1]
  insertedWindowDims := [0]
  scatterDimsToOperandDims := [0]
  indexVectorDim := 1
  wf := scatter_S128x64_S1000000x1_S1000000x64_1_0_0_1_wf
def gather_S128x64_S1000000x1_S1000000x64_1_0_n_n_0_1_164 : GatherDims S128x64 S1000000x1 S1000000x64 where
  offsetDims := [1]
  collapsedSliceDims := [0]
  operandBatchingDims := []
  startIndicesBatchingDims := []
  startIndexMap := [0]
  indexVectorDim := 1
  sliceSizes := ![1, 64]
  wf := gather_S128x64_S1000000x1_S1000000x64_1_0_n_n_0_1_164_wf

class Facts : Prop extends Facts₀ where

variable [Facts]
-- ==== Proof.Spec.lean ====
/-
  The two losses as mathematics, over coordinates, on the extended reals.

  A row `n` of the million carries 64 features `feat n f` and a 32-bit cluster word `ids n`; it belongs to cluster
  `k < 128` when its word is the word of `k`. Both programs compute, from per-cluster counts, sums and means,
    * a variance term: each row's distance to the mean of its cluster, hinged at 1/2 and squared, averaged within
      each cluster and then over the 128 clusters;
    * a distance term: for each ordered pair of distinct clusters, 3 minus the distance of their means, hinged at 0
      and squared, averaged over the 128·127 pairs.
  They differ in how they get there. The tiled program walks the rows as 2 halves × 50 tiles × 10000 rows, keeps one
  partial result per half, divides by the count guarded from below by 1, reads a row's cluster mean as a one-hot
  weighted sum over all 128 means, and gets squared distances of means from the Gram matrix
  (|a|² + |b|² − 2⟨a,b⟩, clipped at 0). The plain program sums over all rows at once, divides by the bare count, reads the
  mean of the row's cluster directly, and sums squared differences.
  This module only names the pieces; the laws that join the two sides are proved elsewhere.
-/
import Idealize.ShloMosaic.PureOps.Ideal

noncomputable section

namespace Cert.Spec

open Idealize.ShloMosaic

/-! ## The constants both programs carry, as the values their words denote -/

abbrev cHalf : EReal := Ideal.ofBits .f32 0x3F000000#32
abbrev cOne : EReal := Ideal.ofBits .f32 0x3F800000#32
abbrev cTwo : EReal := Ideal.ofBits .f32 0x40000000#32
abbrev cThree : EReal := Ideal.ofBits .f32 0x40400000#32
abbrev c128 : EReal := Ideal.ofBits .f32 0x43000000#32
abbrev c16256 : EReal := Ideal.ofBits .f32 0x467E0000#32

/-- The 32-bit word of cluster number `k`. -/
abbrev wd (k : Fin 128) : BitVec 32 := BitVec.ofNat 32 k.val

/-- Row `r` of tile `i` of half `cc`, as a row of the million. -/
def row (cc : Fin 2) (i : Fin 50) (r : Fin 10000) : Fin 1000000 :=
  ⟨(cc.val * 50 + i.val) * 10000 + r.val, by have := cc.isLt; have := i.isLt; have := r.isLt; omega⟩

/-- A hinge at zero, squared. -/
def hingeSq (x : EReal) : EReal := max x 0 * max x 0

section

variable (feat : Fin 1000000 → Fin 64 → EReal) (ids : Fin 1000000 → BitVec 32)

/-! ## Pieces shared by both sides -/

/-- Row `n`'s hinged squared distance to a point `g` of feature space: (max (|x − g| − 1/2) 0)². -/
def ppOf (g : Fin 64 → EReal) (n : Fin 1000000) : EReal :=
  hingeSq (Ideal.sqrt (∑ f : Fin 64, (feat n f - g f) * (feat n f - g f)) - cHalf)

/-- One pair's term of the distance loss from the pair's squared distance `sq`: nothing on the diagonal (where the
    root is taken of 1 instead), off it (max (3 − √sq) 0)². -/
def dlOf (sq : EReal) (i j : Fin 128) : EReal :=
  if i = j then 0 else hingeSq (cThree - Ideal.sqrt (if i = j then cOne else sq))

/-! ## The tiled side -/

/-- Half `cc`'s count of cluster `k`. -/
def cntCore (cc : Fin 2) (k : Fin 128) : EReal :=
  ∑ i : Fin 50, ∑ r : Fin 10000, if ids (row cc i r) = wd k then (1 : EReal) else 0

/-- Half `cc`'s feature sum of cluster `k`. -/
def smCore (cc : Fin 2) (k : Fin 128) (f : Fin 64) : EReal :=
  ∑ i : Fin 50, ∑ r : Fin 10000, if ids (row cc i r) = wd k then feat (row cc i r) f else 0

def kCnt (k : Fin 128) : EReal := ∑ cc : Fin 2, cntCore ids cc k
def kSm (k : Fin 128) (f : Fin 64) : EReal := ∑ cc : Fin 2, smCore feat ids cc k f
/-- The count guarded from below by one. -/
def kCs (k : Fin 128) : EReal := max (kCnt ids k) cOne
def kMean (k : Fin 128) (f : Fin 64) : EReal := Ideal.div (kSm feat ids k f) (kCs ids k)

/-- Row `n`'s cluster mean read as a one-hot weighted sum over a table `mu` of 128 means. -/
def gathK (mu : Fin 128 → Fin 64 → EReal) (n : Fin 1000000) (f : Fin 64) : EReal :=
  ∑ k : Fin 128, (if ids n = wd k then (1 : EReal) else 0) * mu k f

/-- Half `cc`'s sum, over the rows of cluster `k`, of the hinged squared distances to the one-hot mean. -/
def varCore (mu : Fin 128 → Fin 64 → EReal) (cc : Fin 2) (k : Fin 128) : EReal :=
  ∑ i : Fin 50, ∑ r : Fin 10000,
    if ids (row cc i r) = wd k then ppOf feat (gathK ids mu (row cc i r)) (row cc i r) else 0

def kVar (k : Fin 128) : EReal := ∑ cc : Fin 2, varCore feat ids (kMean feat ids) cc k
def kPC (k : Fin 128) : EReal := Ideal.div (kVar feat ids k) (kCs ids k)
def kVL : EReal := Ideal.div (∑ k : Fin 128, kPC feat ids k) c128

/-- The Gram form of the squared distance of means `i` and `j`, clipped at zero. -/
def sqK (mu : Fin 128 → Fin 64 → EReal) (i j : Fin 128) : EReal :=
  max ((∑ f : Fin 64, mu i f * mu i f) + (∑ f : Fin 64, mu j f * mu j f) - cTwo * (∑ f : Fin 64, mu i f * mu j f)) 0

/-- Cluster `i`'s row of the distance loss. -/
def rowsumK (mu : Fin 128 → Fin 64 → EReal) (i : Fin 128) : EReal := ∑ j : Fin 128, dlOf (sqK mu i j) i j

def kDL : EReal := Ideal.div (∑ i : Fin 128, rowsumK (kMean feat ids) i) c16256

/-- What the tiled program returns. -/
def kernelResult : EReal := kVL feat ids + kDL feat ids

/-! ## The plain side -/

def cnt (k : Fin 128) : EReal := ∑ n : Fin 1000000, if ids n = wd k then (1 : EReal) else 0
def sm (k : Fin 128) (f : Fin 64) : EReal := ∑ n : Fin 1000000, if ids n = wd k then feat n f else 0
def rMean (k : Fin 128) (f : Fin 64) : EReal := Ideal.div (sm feat ids k f) (cnt ids k)

/-- The sum, over the rows of cluster `k`, of the hinged squared distances to the mean of the row `g n` that a
    direct read picks for row `n`. -/
def rVar (g : Fin 1000000 → Fin 128) (k : Fin 128) : EReal :=
  ∑ n : Fin 1000000, if ids n = wd k then ppOf feat (fun f => rMean feat ids (g n) f) n else 0

def rPC (g : Fin 1000000 → Fin 128) (k : Fin 128) : EReal := Ideal.div (rVar feat ids g k) (cnt ids k)
def rVL (g : Fin 1000000 → Fin 128) : EReal := Ideal.div (∑ k : Fin 128, rPC feat ids g k) c128

/-- The squared distance of means `i` and `j` as a sum of squared differences. -/
def sqR (mu : Fin 128 → Fin 64 → EReal) (i j : Fin 128) : EReal :=
  ∑ f : Fin 64, (mu i f - mu j f) * (mu i f - mu j f)

def rDL : EReal :=
  Ideal.div (∑ i : Fin 128, ∑ j : Fin 128, dlOf (sqR (rMean feat ids) i j) i j) c16256

/-- What the plain program returns, `g n` being the table row its direct read picks for row `n`. -/
def refResult (g : Fin 1000000 → Fin 128) : EReal := rVL feat ids g + rDL feat ids

end

end Cert.Spec

end
-- ==== Proof.KArrays.lean ====
/-
  The tiled program's arrays as a region finds them, read by coordinates: the feature table (row, feature), the column of
  cluster words (row), and the table of cluster means (cluster, feature).
-/
import proofs.«416575_j4896262717860_3_alg».proof.Proof.Gen.KernelIdeal.Frame
import proofs.«416575_j4896262717860_3_alg».proof.Proof.Spec
import Idealize.ShloMosaic.Lib.ValueIdx

noncomputable section

namespace Cert.KernelIdeal.KV

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- Feature `f` of row `n`. -/
def featOf (c : Dev nD) : Fin 1000000 → Fin 64 → EReal := fun n f => (V c main_arg0 : S1000000x64.Idx → EReal) (ix2 n f)
/-- Row `n`'s cluster word (the sliced label column). -/
def idsOf (c : Dev nD) : Fin 1000000 → BitVec 32 := fun n => (V c main_v0 : S1000000x1.Idx → BitVec 32) (ix2 n 0)
/-- Feature `f` of cluster `k`'s mean. -/
def meansOf (c : Dev nD) : Fin 128 → Fin 64 → EReal := fun k f => (V c main_v9 : S128x64.Idx → EReal) (ix2 k f)

/-- Feature `f` of row `n` in the memory the program is launched from. -/
def featM (m : (ℓ : Loc nD τ sig) → Buf (Elt Ideal) ℓ) (c : Dev nD) : Fin 1000000 → Fin 64 → EReal :=
  fun n f => (m ((c : Thread nD τ).loc main_arg0) : S1000000x64.Idx → EReal) (ix2 n f)
/-- Row `n`'s cluster word in the memory the program is launched from: column 1 of the label pairs. -/
def idsM (m : (ℓ : Loc nD τ sig) → Buf (Elt Ideal) ℓ) (c : Dev nD) : Fin 1000000 → BitVec 32 :=
  fun n => (m ((c : Thread nD τ).loc main_arg1) : S1000000x2.Idx → BitVec 32) (ix2 n 1)

end Cert.KernelIdeal.KV

end
-- ==== Proof.Region0.lean ====
/-
  The first tiled pass. Each half of the rows is walked in 50 tiles of 10000 rows; a tile adds, into the half's
  [128 × 64] block, the one-hot-weighted sum of its rows' features (row r counts for cluster k when its word is k's),
  and into the half's [128] block the number of its rows in each cluster; the first tile of a half starts from zero.
  So after the pass half cc's blocks hold the sums and counts over all of that half's rows.

  The argument, in order: what each of the two kinds of tile leaves in the two blocks, as arithmetic of the tile's
  rows and of the carried blocks; that arithmetic read entry by entry on the extended reals (a product with a 0/1
  mask, summed over the tile's rows, is the sum over the rows the mask selects); the tile's rows located in the
  full table; by induction along the walk, the blocks after a tile hold the shares of the tiles of its half so far;
  the last tile of a half writes the half's total back, and every entry of the two result arrays lies in the block
  one such tile writes.
-/
import proofs.«416575_j4896262717860_3_alg».proof.Proof.KArrays
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.R0

open Cert.KernelIdeal Cert.KernelIdeal.Gen Idealize.ShloMosaic Idealize.ShloMosaic.ValueIdx Idealize.ShloMosaic.TcCoe Idealize.SL.Sem
open Idealize.ShloMosaic.Pipeline (Dat)
open Cert.KernelIdeal.KV

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile leaves, in the sums block, the carried block plus the tile's one-hot-weighted feature sums. -/
theorem piece_B_2 (c : Dev nD) (i : grid0.Coords) (a2 : Memref sig .tc .vmem S10000x64 .f32) (h2 : a2.IsWhole)
    (a3 : Memref sig .tc .vmem S10000x1 .i32) (h3 : a3.IsWhole) (a4 : Memref sig .tc .vmem S1x128x64 .f32) (h4 : a4.IsWhole)
    (a5 : Memref sig .tc .vmem S1x1x128 .f32) (h5 : a5.IsWhole) (hc : ¬cond0_0 i)
    (x0 : Vec F S10000x64 .f32) (x1 : Vec F S10000x1 .i32) (xo2 : Vec F S1x128x64 .f32) (xo3 : Vec F S1x1x128 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S10000x64) hz2,
    View.ld_unit_zero (S := S10000x1) hz2, View.ld_unit_zero (S := S1x128x64) hz3]

/-- A later tile leaves, in the counts block, the carried block plus the tile's per-cluster row counts. -/
theorem piece_B_3 (c : Dev nD) (i : grid0.Coords) (a2 : Memref sig .tc .vmem S10000x64 .f32) (h2 : a2.IsWhole)
    (a3 : Memref sig .tc .vmem S10000x1 .i32) (h3 : a3.IsWhole) (a4 : Memref sig .tc .vmem S1x128x64 .f32) (h4 : a4.IsWhole)
    (a5 : Memref sig .tc .vmem S1x1x128 .f32) (h5 : a5.IsWhole) (hc : ¬cond0_0 i)
    (x0 : Vec F S10000x64 .f32) (x1 : Vec F S10000x1 .i32) (xo2 : Vec F S1x128x64 .f32) (xo3 : Vec F S1x1x128 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread,
    View.ld_unit_zero (S := S10000x1) hz2, View.ld_unit_zero (S := S1x1x128) hz3]

/-- The first tile of a half stores the zero block, reads it back, and leaves zero plus the tile's weighted sums. -/
theorem piece_A_2 (c : Dev nD) (i : grid0.Coords) (a2 : Memref sig .tc .vmem S10000x64 .f32) (h2 : a2.IsWhole)
    (a3 : Memref sig .tc .vmem S10000x1 .i32) (h3 : a3.IsWhole) (a4 : Memref sig .tc .vmem S1x128x64 .f32) (h4 : a4.IsWhole)
    (a5 : Memref sig .tc .vmem S1x1x128 .f32) (h5 : a5.IsWhole) (hc : cond0_0 i)
    (x0 : Vec F S10000x64 .f32) (x1 : Vec F S10000x1 .i32) :
    out0_A_2 c i a2 h2 a3 h3 a4 h4 a5 h5 hc x0 x1 = k0_pay4 x1 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x128x64) hz3, View.readCov_unit_zero (S := S1x128x64) _ hz3]
  simp only [View.readAt_eq_ld, h2.read_unread, h3.read_unread, View.ld_unit_zero (S := S10000x64) hz2,
    View.ld_unit_zero (S := S10000x1) hz2]

/-- The first tile of a half likewise leaves zero plus the tile's counts. -/
theorem piece_A_3 (c : Dev nD) (i : grid0.Coords) (a2 : Memref sig .tc .vmem S10000x64 .f32) (h2 : a2.IsWhole)
    (a3 : Memref sig .tc .vmem S10000x1 .i32) (h3 : a3.IsWhole) (a4 : Memref sig .tc .vmem S1x128x64 .f32) (h4 : a4.IsWhole)
    (a5 : Memref sig .tc .vmem S1x1x128 .f32) (h5 : a5.IsWhole) (hc : cond0_0 i)
    (x0 : Vec F S10000x64 .f32) (x1 : Vec F S10000x1 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h3.read_unread, View.ld_unit_zero (S := S10000x1) hz2]

end Pieces

section Payloads

/-- The one-hot mask as a number: entry (r, k) is 1 when row r's word is cluster k's, else 0. -/
theorem mask_at (ids : Vec Ideal S10000x1 .i32) (r : Fin 10000) (k : Fin 128) :
    (sitofp .f32 (extui 32 (k0_pay3 (F := Ideal) ids) natLt_1_32) : FVec Ideal S10000x128 .f32) (ix2 r k)
      = if ids (ix2 r 0) = BitVec.ofNat 32 k.val then (1 : EReal) else 0 := by
  have e1 : broadcastTo S10000x128 (shapeCast S10000x1 ids shapeCasts_S10000x1_S10000x1) broadcasts_S10000x1_S10000x128 (ix2 r k)
      = ids (ix2 r 0) := by
    rw [shapeCast_self]
    refine broadcastTo_apply ids broadcasts_S10000x1_S10000x128 (ix2 r k) (ix2 r 0) fun a => ?_
    match a with
    | ⟨0, _⟩ => rfl
    | ⟨1, _⟩ => rfl
  have e2 : iota .tc S10000x128 32 [1] iota_S10000x128_d1_w32 (ix2 r k) = BitVec.ofNat 32 k.val :=
    iota_single_apply .tc S10000x128 32 1 iota_S10000x128_d1_w32 (ix2 r k)
  show FloatOps.sitofp .f32 ((IntOp.cmpi .eq
      (broadcastTo S10000x128 (shapeCast S10000x1 ids shapeCasts_S10000x1_S10000x1) broadcasts_S10000x1_S10000x128 (ix2 r k))
      (iota .tc S10000x128 32 [1] iota_S10000x128_d1_w32 (ix2 r k))).setWidth 32) = _
  rw [e1, e2]
  by_cases h : ids (ix2 r 0) = BitVec.ofNat 32 k.val
  · rw [if_pos h, h]
    show (((((BitVec.ofBool (BitVec.ofNat 32 k.val == BitVec.ofNat 32 k.val)).setWidth 32).toInt : ℤ) : ℝ) : EReal) = 1
    rw [beq_self_eq_true, show ((BitVec.ofBool true).setWidth 32).toInt = 1 from by decide]
    norm_num
  · rw [if_neg h]
    show (((((BitVec.ofBool (ids (ix2 r 0) == BitVec.ofNat 32 k.val)).setWidth 32).toInt : ℤ) : ℝ) : EReal) = 0
    rw [beq_eq_false_iff_ne.mpr h, show ((BitVec.ofBool false).setWidth 32).toInt = 0 from by decide]
    norm_num

/-- The product that contracts the row axis of both operands, into a zero block: entry (k, f) is the sum over the
    rows of the products of the two operands' entries (r, k) and (r, f). -/
theorem matmul_at {φ₁ φ₂ : FTy} (L : FVec Ideal S10000x128 φ₁) (R : FVec Ideal S10000x64 φ₂) (k : Fin 128) (f : Fin 64) :
    matmul dot_S10000x128_S10000x64_S128x64_0_0_1_1_n_n none L R (constant S128x64 .f32 0x00000000#32) (ix2 k f)
      = ∑ r : Fin 10000, L (ix2 r k) * R (ix2 r f) := by
  show FloatOps.matmul dot_S10000x128_S10000x64_S128x64_0_0_1_1_n_n none L R (constant S128x64 .f32 0x00000000#32) (ix2 k f) = _
  rw [Ideal.matmul_constant_zero_apply, ← Equiv.sum_comp (contrEquiv1 dot_S10000x128_S10000x64_S128x64_0_0_1_1_n_n 10000 rfl rfl).symm]
  refine Finset.sum_congr rfl fun r _ => ?_
  have c2 := contrEquiv1_symm_val dot_S10000x128_S10000x64_S128x64_0_0_1_1_n_n 10000 rfl rfl r
  have l2 : (dot_S10000x128_S10000x64_S128x64_0_0_1_1_n_n).lhsIdx (ix2 k f) ((contrEquiv1 _ 10000 rfl rfl).symm r) = ix2 r k := by
    funext ax; apply Fin.ext
    match ax with
    | ⟨0, _⟩ => simp [DotDims.lhsIdx, dot_S10000x128_S10000x64_S128x64_0_0_1_1_n_n]; exact c2
    | ⟨1, _⟩ => simp [DotDims.lhsIdx, dot_S10000x128_S10000x64_S128x64_0_0_1_1_n_n]; rfl
  have r2 : (dot_S10000x128_S10000x64_S128x64_0_0_1_1_n_n).rhsIdx (ix2 k f) ((contrEquiv1 _ 10000 rfl rfl).symm r) = ix2 r f := by
    funext ax; apply Fin.ext
    match ax with
    | ⟨0, _⟩ => simp [DotDims.rhsIdx, dot_S10000x128_S10000x64_S128x64_0_0_1_1_n_n]; exact c2
    | ⟨1, _⟩ => simp [DotDims.rhsIdx, dot_S10000x128_S10000x64_S128x64_0_0_1_1_n_n]; rfl
  rw [l2, r2]

/-- The sum over the row axis: entry k is the sum over the rows of the entries (r, k). -/
theorem colsum_at (X : FVec Ideal S10000x128 .f32) (k : Fin 128) :
    multiReduction (F := Ideal) .add [0] S128 X 0x00000000#32 reduces_S10000x128_S128 (.inl rfl) rfl (ix1 k)
      = ∑ r : Fin 10000, X (ix2 r k) := by
  refine (Ideal.multiReduction_add_single X _ reduces_S10000x128_S128 (.inl rfl) rfl (ix1 k)).trans ?_
  refine Finset.sum_congr rfl fun r _ => congrArg X ?_
  funext ax; apply Fin.ext
  match ax with
  | ⟨0, _⟩ => rfl
  | ⟨1, _⟩ => rfl

end Payloads

section PayloadsAtIndex

/-- The sums payload at an entry: the carried entry plus the tile's one-hot-weighted feature sum. -/
theorem pay4_at (ids : Vec Ideal S10000x1 .i32) (x : Vec Ideal S10000x64 .f32) (acc : Vec Ideal S1x128x64 .f32)
    (u : Fin 1) (k : Fin 128) (f : Fin 64) :
    k0_pay4 (F := Ideal) ids x acc (ix3 u k f)
      = acc (ix3 u k f) + ∑ r : Fin 10000, (if ids (ix2 r 0) = BitVec.ofNat 32 k.val then x (ix2 r f) else 0) := by
  have e1 : shapeCast S1x128x64 acc shapeCasts_S1x128x64_S1x128x64 (ix3 u k f) = acc (ix3 u k f) :=
    congrFun (shapeCast_self acc shapeCasts_S1x128x64_S1x128x64) (ix3 u k f)
  have e2 := shapeCast_ab_1ab_apply
    (matmul dot_S10000x128_S10000x64_S128x64_0_0_1_1_n_n none
      (truncf .bf16 (sitofp .f32 (extui 32 (k0_pay3 (F := Ideal) ids) natLt_1_32) : FVec Ideal S10000x128 .f32) bitsLt_bf16_f32)
      (truncf .bf16 x bitsLt_bf16_f32) (constant S128x64 .f32 0x00000000#32))
    shapeCasts_S128x64_S1x128x64 u k f
  have e3 := matmul_at
    (truncf .bf16 (sitofp .f32 (extui 32 (k0_pay3 (F := Ideal) ids) natLt_1_32) : FVec Ideal S10000x128 .f32) bitsLt_bf16_f32)
    (truncf .bf16 x bitsLt_bf16_f32) k f
  refine (congrArg₂ (· + ·) e1 (e2.trans e3)).trans ?_
  refine congrArg (acc (ix3 u k f) + ·) (Finset.sum_congr rfl fun r _ => ?_)
  show (sitofp .f32 (extui 32 (k0_pay3 (F := Ideal) ids) natLt_1_32) : FVec Ideal S10000x128 .f32) (ix2 r k) * x (ix2 r f) = _
  rw [mask_at]
  by_cases h : ids (ix2 r 0) = BitVec.ofNat 32 k.val
  · rw [if_pos h, if_pos h, one_mul]
  · rw [if_neg h, if_neg h, zero_mul]

/-- The counts payload at an entry: the carried entry plus the number of the tile's rows in the cluster. -/
theorem pay5_at (ids : Vec Ideal S10000x1 .i32) (acc : Vec Ideal S1x1x128 .f32) (u v : Fin 1) (k : Fin 128) :
    k0_pay5 (F := Ideal) ids acc (ix3 u v k)
      = acc (ix3 u v k) + ∑ r : Fin 10000, (if ids (ix2 r 0) = BitVec.ofNat 32 k.val then (1 : EReal) else 0) := by
  have e1 : shapeCast S1x1x128 acc shapeCasts_S1x1x128_S1x1x128 (ix3 u v k) = acc (ix3 u v k) :=
    congrFun (shapeCast_self acc shapeCasts_S1x1x128_S1x1x128) (ix3 u v k)
  have e2 := shapeCast_ab_1ab_apply
    (shapeCast S1x128 (multiReduction (F := Ideal) .add [0] S128
      (sitofp .f32 (extui 32 (k0_pay3 (F := Ideal) ids) natLt_1_32) : FVec Ideal S10000x128 .f32)
      0x00000000#32 reduces_S10000x128_S128 (.inl rfl) rfl) shapeCasts_S128_S1x128)
    shapeCasts_S1x128_S1x1x128 u v k
  have e3 := shapeCast_a_1a_apply
    (multiReduction (F := Ideal) .add [0] S128
      (sitofp .f32 (extui 32 (k0_pay3 (F := Ideal) ids) natLt_1_32) : FVec Ideal S10000x128 .f32)
      0x00000000#32 reduces_S10000x128_S128 (.inl rfl) rfl) shapeCasts_S128_S1x128 v k
  have e4 := colsum_at (sitofp .f32 (extui 32 (k0_pay3 (F := Ideal) ids) natLt_1_32) : FVec Ideal S10000x128 .f32) k
  refine (congrArg₂ (· + ·) e1 (e2.trans (e3.trans e4))).trans ?_
  exact congrArg (acc (ix3 u v k) + ·) (Finset.sum_congr rfl fun r _ => mask_at ids r k)

end PayloadsAtIndex

variable (V : (c : Dev nD) → (b : Ref sig .tc) → Buf (Elt Ideal) ((c : Thread nD τ).loc b))

section Blocks

/-- Where each window's block lies at point t: the row windows at block row t, the accumulators at block t / 50. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 50 ∧ win0_2.index t (1 : Fin 3) = 0 ∧ win0_2.index t (2 : Fin 3) = 0
    ∧ win0_3.index t (0 : Fin 3) = t.val / 50 ∧ win0_3.index t (1 : Fin 3) = 0 ∧ win0_3.index t (2 : Fin 3) = 0 :=
  (by decide +kernel : ∀ t : Fin grid0.N, _)

/-- The feature rows of tile t. -/
abbrev xblk (c : Dev nD) (t : Fin cfg0.N) : Vec Ideal S10000x64 .f32 := iblk0 V c 0 t
/-- The cluster words of tile t. -/
abbrev wblk (c : Dev nD) (t : Fin cfg0.N) : Vec Ideal S10000x1 .i32 := iblk0 V c 1 t

/-- Row r of tile t is row t·10000 + r of the feature table. -/
theorem xblk_at (c : Dev nD) (t : Fin cfg0.N) (r : Fin 10000) (f : Fin 64) (h : t.val * 10000 + r.val < 1000000) :
    xblk V c t (ix2 r f) = featOf V c ⟨t.val * 10000 + r.val, h⟩ f := by
  obtain ⟨e0, e1, -⟩ := idx_facts t
  unfold xblk iblk0 featOf
  rw [View.read_apply]
  show V c main_arg0 _ = V c main_arg0 _
  congr 1
  funext a; apply Fin.ext
  match a with
  | ⟨0, _⟩ => show win0_0.index t (0 : Fin 2) * 10000 + 1 * r.val = t.val * 10000 + r.val; rw [e0]; omega
  | ⟨1, _⟩ => show win0_0.index t (1 : Fin 2) * 64 + 1 * f.val = f.val; rw [e1]; omega

/-- Row r of tile t carries the cluster word of row t·10000 + r. -/
theorem wblk_at (c : Dev nD) (t : Fin cfg0.N) (r : Fin 10000) (h : t.val * 10000 + r.val < 1000000) :
    wblk V c t (ix2 r 0) = idsOf V c ⟨t.val * 10000 + r.val, h⟩ := by
  obtain ⟨-, -, e0, e1, -⟩ := idx_facts t
  unfold wblk iblk0 idsOf
  rw [View.read_apply]
  show V c main_v0 _ = V c main_v0 _
  congr 1
  funext a; apply Fin.ext
  match a with
  | ⟨0, _⟩ => show win0_1.index t (0 : Fin 2) * 10000 + 1 * r.val = t.val * 10000 + r.val; rw [e0]; omega
  | ⟨1, _⟩ => show win0_1.index t (1 : Fin 2) * 1 + 1 * 0 = 0; rw [e1]

end Blocks

section Invariant

/-- Tile p's share of cluster k's feature sum, over the tile's own block (zero past the grid). -/
def tileS (c : Dev nD) (k : Fin 128) (f : Fin 64) (p : ℕ) : EReal :=
  if h : p < cfg0.N then
    ∑ r : Fin 10000, (if wblk V c ⟨p, h⟩ (ix2 r 0) = BitVec.ofNat 32 k.val then xblk V c ⟨p, h⟩ (ix2 r f) else 0)
  else 0

/-- Tile p's share of cluster k's count (zero past the grid). -/
def tileC (c : Dev nD) (k : Fin 128) (p : ℕ) : EReal :=
  if h : p < cfg0.N then
    ∑ r : Fin 10000, (if wblk V c ⟨p, h⟩ (ix2 r 0) = BitVec.ofNat 32 k.val then (1 : EReal) else 0)
  else 0

/-- The first tile of a half leaves exactly its own shares. -/
theorem stepA (c : Dev nD) (n : ℕ) (h : n < cfg0.N) (h0 : n % 50 = 0) :
    (∀ (u : Fin 1) (k : Fin 128) (f : Fin 64), (outsAt0 V c n h).1 (ix3 u k f) = tileS V c k f n)
    ∧ (∀ (u v : Fin 1) (k : Fin 128), (outsAt0 V c n h).2 (ix3 u v k) = tileC V c k n) := by
  rw [outsAt0_A V c ⟨n, h⟩ h0]
  dsimp only
  refine ⟨fun u k f => ?_, fun u v k => ?_⟩
  · refine (congrFun (piece_A_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0)
      (xblk V c ⟨n, h⟩) (wblk V c ⟨n, h⟩)) (ix3 u k f)).trans ?_
    rw [pay4_at]
    have z : (k0_pay1 (F := Ideal)) (ix3 u k f) = 0 := Ideal.ofBits_zero_f32
    rw [z, zero_add]
    unfold tileS
    rw [dif_pos h]
  · refine (congrFun (piece_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0)
      (xblk V c ⟨n, h⟩) (wblk V c ⟨n, h⟩)) (ix3 u v k)).trans ?_
    rw [pay5_at]
    have z : (k0_pay2 (F := Ideal)) (ix3 u v k) = 0 := Ideal.ofBits_zero_f32
    rw [z, zero_add]
    unfold tileC
    rw [dif_pos h]

/-- A later tile adds its own shares to what the tile before left. -/
theorem stepB (c : Dev nD) (n : ℕ) (h : n + 1 < cfg0.N) (h0 : ¬(n + 1) % 50 = 0) :
    (∀ (u : Fin 1) (k : Fin 128) (f : Fin 64), (outsAt0 V c (n + 1) h).1 (ix3 u k f)
        = (outsAt0 V c n (Nat.lt_of_succ_lt h)).1 (ix3 u k f) + tileS V c k f (n + 1))
    ∧ (∀ (u v : Fin 1) (k : Fin 128), (outsAt0 V c (n + 1) h).2 (ix3 u v k)
        = (outsAt0 V c n (Nat.lt_of_succ_lt h)).2 (ix3 u v k) + tileC V c k (n + 1)) := by
  rw [outsAt0_B V c ⟨n + 1, h⟩ h0]
  dsimp only
  refine ⟨fun u k f => ?_, fun u v k => ?_⟩
  · refine (congrFun (piece_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh))
      (xblk V c ⟨n + 1, h⟩) (wblk V c ⟨n + 1, h⟩) (outsAt0 V c n (Nat.lt_of_succ_lt h)).1 (outsAt0 V c n (Nat.lt_of_succ_lt h)).2)
      (ix3 u k f)).trans ?_
    rw [pay4_at]
    unfold tileS
    rw [dif_pos h]
  · refine (congrFun (piece_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh))
      (xblk V c ⟨n + 1, h⟩) (wblk V c ⟨n + 1, h⟩) (outsAt0 V c n (Nat.lt_of_succ_lt h)).1 (outsAt0 V c n (Nat.lt_of_succ_lt h)).2)
      (ix3 u v k)).trans ?_
    rw [pay5_at]
    unfold tileC
    rw [dif_pos h]

/-- After point n the two blocks hold the shares of the tiles of n's half up to n. -/
theorem outsAt_eq (c : Dev nD) (n : ℕ) : ∀ (h : n < cfg0.N),
    (∀ (u : Fin 1) (k : Fin 128) (f : Fin 64),
      (outsAt0 V c n h).1 (ix3 u k f) = ∑ i ∈ Finset.range (n % 50 + 1), tileS V c k f (n / 50 * 50 + i))
    ∧ (∀ (u v : Fin 1) (k : Fin 128),
      (outsAt0 V c n h).2 (ix3 u v k) = ∑ i ∈ Finset.range (n % 50 + 1), tileC V c k (n / 50 * 50 + i)) := by
  induction n with
  | zero =>
    intro h
    obtain ⟨a, b⟩ := stepA V c 0 h rfl
    refine ⟨fun u k f => (a u k f).trans ?_, fun u v k => (b u v k).trans ?_⟩
    · show _ = ∑ i ∈ Finset.range 1, tileS V c k f (0 + i)
      rw [Finset.sum_range_one]
    · show _ = ∑ i ∈ Finset.range 1, tileC V c k (0 + i)
      rw [Finset.sum_range_one]
  | succ n ih =>
    intro h
    by_cases h0 : (n + 1) % 50 = 0
    · obtain ⟨a, b⟩ := stepA V c (n + 1) h h0
      have e : (n + 1) / 50 * 50 = n + 1 := by omega
      refine ⟨fun u k f => (a u k f).trans ?_, fun u v k => (b u v k).trans ?_⟩
      · rw [h0, e, Nat.zero_add, Finset.sum_range_one, Nat.add_zero]
      · rw [h0, e, Nat.zero_add, Finset.sum_range_one, Nat.add_zero]
    · obtain ⟨a, b⟩ := stepB V c n h h0
      obtain ⟨ia, ib⟩ := ih (Nat.lt_of_succ_lt h)
      have e1 : (n + 1) % 50 = n % 50 + 1 := by omega
      have e2 : (n + 1) / 50 = n / 50 := by omega
      have e3 : n / 50 * 50 + (n % 50 + 1) = n + 1 := by omega
      refine ⟨fun u k f => (a u k f).trans ?_, fun u v k => (b u v k).trans ?_⟩
      · rw [ia, e1, e2, Finset.sum_range_succ _ (n % 50 + 1), e3]
      · rw [ib, e1, e2, Finset.sum_range_succ _ (n % 50 + 1), e3]

end Invariant

section Final

/-- Half cc's tiles are the 50 tiles cc·50 … cc·50 + 49, and their shares add up to the half's feature sum. -/
theorem half_sums (c : Dev nD) (cc : Fin 2) (k : Fin 128) (f : Fin 64) :
    ∑ i ∈ Finset.range 50, tileS V c k f (cc.val * 50 + i) = Spec.smCore (featOf V c) (idsOf V c) cc k f := by
  have hN : cfg0.N = 100 := N_0
  unfold Spec.smCore
  rw [Finset.sum_range]
  refine Finset.sum_congr rfl fun i _ => ?_
  have hp : cc.val * 50 + i.val < cfg0.N := by have := cc.isLt; have := i.isLt; omega
  unfold tileS
  rw [dif_pos hp]
  refine Finset.sum_congr rfl fun r _ => ?_
  have hr : (cc.val * 50 + i.val) * 10000 + r.val < 1000000 := by have := cc.isLt; have := i.isLt; have := r.isLt; omega
  rw [xblk_at V c ⟨cc.val * 50 + i.val, hp⟩ r f hr, wblk_at V c ⟨cc.val * 50 + i.val, hp⟩ r hr]
  rfl

/-- Likewise the counts. -/
theorem half_counts (c : Dev nD) (cc : Fin 2) (k : Fin 128) :
    ∑ i ∈ Finset.range 50, tileC V c k (cc.val * 50 + i) = Spec.cntCore (idsOf V c) cc k := by
  have hN : cfg0.N = 100 := N_0
  unfold Spec.cntCore
  rw [Finset.sum_range]
  refine Finset.sum_congr rfl fun i _ => ?_
  have hp : cc.val * 50 + i.val < cfg0.N := by have := cc.isLt; have := i.isLt; omega
  unfold tileC
  rw [dif_pos hp]
  refine Finset.sum_congr rfl fun r _ => ?_
  have hr : (cc.val * 50 + i.val) * 10000 + r.val < 1000000 := by have := cc.isLt; have := i.isLt; have := r.isLt; omega
  rw [wblk_at V c ⟨cc.val * 50 + i.val, hp⟩ r hr]
  rfl

/-- The table the sums array ends at: entry (cc, k, f) is half cc's feature sum of cluster k. -/
def sumsG (c : Dev nD) : S2x128x64.Idx → EReal := fun i => Spec.smCore (featOf V c) (idsOf V c) (i 0) (i 1) (i 2)
/-- The table the counts array ends at: entry (cc, 0, k) is half cc's count of cluster k. -/
def cntsG (c : Dev nD) : S2x1x128.Idx → EReal := fun i => Spec.cntCore (idsOf V c) (i 0) (i 2)

/-- What the last tile of a half writes back is that half's block of the sums table. -/
theorem flushed2 (c : Dev nD) (t : Fin cfg0.N) (hf : (cfg0.win 2).flush t = true) :
    (dat0 V c).flushed 2 t = ((cfg0.win 2).blk t).view.read (Elt Ideal) (sumsG V c) := by
  have h49 : t.val % 50 = 49 := (flush0_2 t).mp hf
  have hN : cfg0.N = 100 := N_0
  obtain ⟨-, -, -, -, e0, e1, e2, -⟩ := idx_facts t
  show (cfg0.win 2).cut (grid0.coords t) ((dat0 V c).after 2 t) = _
  rw [after0_2]
  funext y
  obtain ⟨u, k, f, rfl⟩ : ∃ (u : Fin 1) (k : Fin 128) (f : Fin 64), y = ix3 u k f := ⟨y 0, y 1, y 2, eq_ix3 y⟩
  rw [View.read_apply]
  refine ((outsAt_eq V c t.val t.isLt).1 u k f).trans ?_
  have hcc : t.val / 50 < 2 := by have := t.isLt; omega
  have hemb : ((cfg0.win 2).blk t).view.emb (ix3 u k f) = ix3 (⟨t.val / 50, hcc⟩ : Fin 2) k f := by
    funext a; apply Fin.ext
    match a with
    | ⟨0, _⟩ => show win0_2.index t (0 : Fin 3) * 1 + 1 * u.val = t.val / 50; rw [e0]; omega
    | ⟨1, _⟩ => show win0_2.index t (1 : Fin 3) * 128 + 1 * k.val = k.val; rw [e1]; omega
    | ⟨2, _⟩ => show win0_2.index t (2 : Fin 3) * 64 + 1 * f.val = f.val; rw [e2]; omega
  rw [hemb, h49]
  exact half_sums V c ⟨t.val / 50, hcc⟩ k f

end Final

section Final2

/-- What the last tile of a half writes back is that half's block of the counts table. -/
theorem flushed3 (c : Dev nD) (t : Fin cfg0.N) (hf : (cfg0.win 3).flush t = true) :
    (dat0 V c).flushed 3 t = ((cfg0.win 3).blk t).view.read (Elt Ideal) (cntsG V c) := by
  have h49 : t.val % 50 = 49 := (flush0_3 t).mp hf
  have hN : cfg0.N = 100 := N_0
  obtain ⟨-, -, -, -, -, -, -, e0, e1, e2⟩ := idx_facts t
  show (cfg0.win 3).cut (grid0.coords t) ((dat0 V c).after 3 t) = _
  rw [after0_3]
  funext y
  obtain ⟨u, v, k, rfl⟩ : ∃ (u v : Fin 1) (k : Fin 128), y = ix3 u v k := ⟨y 0, y 1, y 2, eq_ix3 y⟩
  rw [View.read_apply]
  refine ((outsAt_eq V c t.val t.isLt).2 u v k).trans ?_
  have hcc : t.val / 50 < 2 := by have := t.isLt; omega
  have hemb : ((cfg0.win 3).blk t).view.emb (ix3 u v k) = ix3 (⟨t.val / 50, hcc⟩ : Fin 2) (0 : Fin 1) k := by
    funext a; apply Fin.ext
    match a with
    | ⟨0, _⟩ => show win0_3.index t (0 : Fin 3) * 1 + 1 * u.val = t.val / 50; rw [e0]; omega
    | ⟨1, _⟩ => show win0_3.index t (1 : Fin 3) * 1 + 1 * v.val = 0; rw [e1]; omega
    | ⟨2, _⟩ => show win0_3.index t (2 : Fin 3) * 128 + 1 * k.val = k.val; rw [e2]; omega
  rw [hemb, h49]
  exact half_counts V c ⟨t.val / 50, hcc⟩ k

end Final2

/-- After the pass, entry (cc, k, f) of the per-half sums is half cc's feature sum of cluster k. -/
theorem sums_final (c : Dev nD) (cc : Fin 2) (k : Fin 128) (f : Fin 64) :
    ((dat0 V c).arrAt 2 cfg0.N : S2x128x64.Idx → EReal) (ix3 cc k f) = Spec.smCore (featOf V c) (idsOf V c) cc k f := by
  have hN : cfg0.N = 100 := N_0
  have ht : cc.val * 50 + 49 < cfg0.N := by have := cc.isLt; omega
  obtain ⟨-, -, -, -, e0, e1, e2, -⟩ := idx_facts ⟨cc.val * 50 + 49, ht⟩
  have e0' : win0_2.index ⟨cc.val * 50 + 49, ht⟩ (0 : Fin 3) = cc.val := by rw [e0]; show (cc.val * 50 + 49) / 50 = cc.val; omega
  refine (dat0 V c).arrAt_apply_of_mem 2 (sumsG V c) (flushed2 V c) cfg0.N ⟨cc.val * 50 + 49, ht⟩ (ix3 cc k f) ht
    ((flush0_2 _).mpr (by show (cc.val * 50 + 49) % 50 = 49; omega)) ?_
  show ix3 cc k f ∈ ((View.whole main_v1_0).slice (win0_2.rect ⟨cc.val * 50 + 49, ht⟩)).set
  rw [View.set_slice_whole, Rect.mem_set_unit]
  intro a
  match a with
  | ⟨0, _⟩ =>
    show win0_2.index ⟨cc.val * 50 + 49, ht⟩ (0 : Fin 3) * 1 ≤ cc.val ∧ cc.val < win0_2.index ⟨cc.val * 50 + 49, ht⟩ (0 : Fin 3) * 1 + 1
    rw [e0']; omega
  | ⟨1, _⟩ =>
    show win0_2.index ⟨cc.val * 50 + 49, ht⟩ (1 : Fin 3) * 128 ≤ k.val ∧ k.val < win0_2.index ⟨cc.val * 50 + 49, ht⟩ (1 : Fin 3) * 128 + 128
    rw [e1]; have := k.isLt; omega
  | ⟨2, _⟩ =>
    show win0_2.index ⟨cc.val * 50 + 49, ht⟩ (2 : Fin 3) * 64 ≤ f.val ∧ f.val < win0_2.index ⟨cc.val * 50 + 49, ht⟩ (2 : Fin 3) * 64 + 64
    rw [e2]; have := f.isLt; omega

/-- After the pass, entry (cc, 0, k) of the per-half counts is half cc's count of cluster k. -/
theorem counts_final (c : Dev nD) (cc : Fin 2) (k : Fin 128) :
    ((dat0 V c).arrAt 3 cfg0.N : S2x1x128.Idx → EReal) (ix3 cc 0 k) = Spec.cntCore (idsOf V c) cc k := by
  have hN : cfg0.N = 100 := N_0
  have ht : cc.val * 50 + 49 < cfg0.N := by have := cc.isLt; omega
  obtain ⟨-, -, -, -, -, -, -, e0, e1, e2⟩ := idx_facts ⟨cc.val * 50 + 49, ht⟩
  have e0' : win0_3.index ⟨cc.val * 50 + 49, ht⟩ (0 : Fin 3) = cc.val := by rw [e0]; show (cc.val * 50 + 49) / 50 = cc.val; omega
  refine (dat0 V c).arrAt_apply_of_mem 3 (cntsG V c) (flushed3 V c) cfg0.N ⟨cc.val * 50 + 49, ht⟩ (ix3 cc 0 k) ht
    ((flush0_3 _).mpr (by show (cc.val * 50 + 49) % 50 = 49; omega)) ?_
  show ix3 cc (0 : Fin 1) k ∈ ((View.whole main_v1_1).slice (win0_3.rect ⟨cc.val * 50 + 49, ht⟩)).set
  rw [View.set_slice_whole, Rect.mem_set_unit]
  intro a
  match a with
  | ⟨0, _⟩ =>
    show win0_3.index ⟨cc.val * 50 + 49, ht⟩ (0 : Fin 3) * 1 ≤ cc.val ∧ cc.val < win0_3.index ⟨cc.val * 50 + 49, ht⟩ (0 : Fin 3) * 1 + 1
    rw [e0']; omega
  | ⟨1, _⟩ =>
    show win0_3.index ⟨cc.val * 50 + 49, ht⟩ (1 : Fin 3) * 1 ≤ 0 ∧ 0 < win0_3.index ⟨cc.val * 50 + 49, ht⟩ (1 : Fin 3) * 1 + 1
    rw [e1]; omega
  | ⟨2, _⟩ =>
    show win0_3.index ⟨cc.val * 50 + 49, ht⟩ (2 : Fin 3) * 128 ≤ k.val ∧ k.val < win0_3.index ⟨cc.val * 50 + 49, ht⟩ (2 : Fin 3) * 128 + 128
    rw [e2]; have := k.isLt; omega

end Cert.KernelIdeal.R0

end
-- ==== Proof.Region1.lean ====
/-
  The second tiled pass. Per tile: each row's cluster mean is read as the one-hot-weighted sum over the table of means,
  the row's distance to it is hinged at 1/2 and squared, and the result is added to the half's [128] block at the row's
  cluster (a select on the one-hot mask, summed down the tile); the first tile of a half starts from zero.
-/
import proofs.«416575_j4896262717860_3_alg».proof.Proof.KArrays
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.R1

open Cert.KernelIdeal Cert.KernelIdeal.Gen Idealize.ShloMosaic Idealize.ShloMosaic.ValueIdx Idealize.ShloMosaic.TcCoe Idealize.SL.Sem
open Idealize.ShloMosaic.Pipeline (Dat)
open Cert.KernelIdeal.KV

/-! ## What each case of the body leaves in the block of sums -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a tile that is not the first of its half, the pass leaves the carried block plus the tile's contribution. -/
theorem out_B (c : Dev nD) (i : grid1.Coords) (a2 : Memref sig .tc .vmem S10000x64 .f32) (h2 : a2.IsWhole)
    (a3 : Memref sig .tc .vmem S10000x1 .i32) (h3 : a3.IsWhole) (a4 : Memref sig .tc .vmem S128x64 .f32) (h4 : a4.IsWhole)
    (a5 : Memref sig .tc .vmem S1x1x128 .f32) (h5 : a5.IsWhole) (hc : ¬cond1_0 i)
    (x0 : Vec F S10000x64 .f32) (x1 : Vec F S10000x1 .i32) (x2 : Vec F S128x64 .f32) (xo : Vec F S1x1x128 .f32) :
    out1_B_3 c i a2 h2 a3 h3 a4 h4 a5 h5 hc x0 x1 x2 xo = k1_pay2 x1 x2 x0 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S10000x64) hz2, View.ld_unit_zero (S := S10000x1) hz2, View.ld_unit_zero (S := S128x64) hz2,
    View.ld_unit_zero (S := S1x1x128) hz3]

/-- At the first tile of a half, the pass first zeroes the block, so it leaves the zero block plus the tile's
    contribution. -/
theorem out_A (c : Dev nD) (i : grid1.Coords) (a2 : Memref sig .tc .vmem S10000x64 .f32) (h2 : a2.IsWhole)
    (a3 : Memref sig .tc .vmem S10000x1 .i32) (h3 : a3.IsWhole) (a4 : Memref sig .tc .vmem S128x64 .f32) (h4 : a4.IsWhole)
    (a5 : Memref sig .tc .vmem S1x1x128 .f32) (h5 : a5.IsWhole) (hc : cond1_0 i)
    (x0 : Vec F S10000x64 .f32) (x1 : Vec F S10000x1 .i32) (x2 : Vec F S128x64 .f32) :
    out1_A_3 c i a2 h2 a3 h3 a4 h4 a5 h5 hc x0 x1 x2 = k1_pay2 x1 x2 x0 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x128) hz3, View.readCov_unit_zero (S := S1x1x128) _ hz3]
  simp only [View.readAt_eq_ld, h2.read_unread, h3.read_unread, h4.read_unread,
    View.ld_unit_zero (S := S10000x64) hz2, View.ld_unit_zero (S := S10000x1) hz2, View.ld_unit_zero (S := S128x64) hz2]

end Pieces

/-! ## Layout operations and comparison bits read at an index -/

section Layout
variable {α : Type}

/-- A column [a,1] laid along b lanes reads, at (r, k), the column's entry r. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- A vector [a] cast to a column [a,1] reads, at (i, u), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- Summing a [m,n] table down its rows: the reduced index k with row r put back is (r, k). -/
theorem lift_rows {m n : ℕ} (h : (⟨2, ![m, n]⟩ : Shape).Reduces [0] (⟨1, ![n]⟩ : Shape)) (k : Fin n)
    (r : Fin ((⟨2, ![m, n]⟩ : Shape).size 0)) : h.lift (ix1 k) r = ix2 (⟨r.val, r.isLt⟩ : Fin m) k := by
  funext c; apply Fin.ext
  fin_cases c <;> rfl

/-- Summing a [m,n] table along its rows: the reduced index r with column f put back is (r, f). -/
theorem lift_cols {m n : ℕ} (h : (⟨2, ![m, n]⟩ : Shape).Reduces [1] (⟨1, ![m]⟩ : Shape)) (r : Fin m)
    (f : Fin ((⟨2, ![m, n]⟩ : Shape).size 1)) : h.lift (ix1 r) f = ix2 r (⟨f.val, f.isLt⟩ : Fin n) := by
  funext c; apply Fin.ext
  fin_cases c <;> rfl

end Layout

section Bits

theorem cmpi_eq_self (a : BitVec 32) : IntOp.cmpi .eq a a = 1#1 := by simp [IntOp.cmpi]

theorem cmpi_eq_of_ne {a b : BitVec 32} (h : ¬a = b) : IntOp.cmpi .eq a b = 0#1 := by
  have hb : (a == b) = false := beq_eq_false_iff_ne.mpr h
  simp [IntOp.cmpi, hb]

/-- The comparison bit of two words, widened and read as a number, is 1 when they are equal and 0 otherwise. -/
theorem sitofp_cmpi_eq (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [cmpi_eq_self, if_pos rfl, show ((1#1 : BitVec 1).setWidth 32).toInt = 1 from by decide]
    simp
  · rw [cmpi_eq_of_ne h, if_neg h, show ((0#1 : BitVec 1).setWidth 32).toInt = 0 from by decide]
    simp

/-- A select on the comparison bit of two words picks the first value when they are equal. -/
theorem select_cmpi_eq {β : Type} (a b : BitVec 32) (x y : β) :
    Scalar.select (IntOp.cmpi .eq a b) x y = if a = b then x else y := by
  by_cases h : a = b
  · subst h
    rw [if_pos rfl, cmpi_eq_self]
    exact select_one x y
  · rw [if_neg h, cmpi_eq_of_ne h]
    exact select_zero x y

end Bits

/-! ## The product of the one-hot rows by the table of means -/

section Matmul

/-- The tile's product of the one-hot rows by the table of means, read at (r, f), is the sum over the 128 clusters of
    the products of the entries. -/
theorem matmul_rows_apply (A : FVec Ideal S10000x128 .bf16) (B : FVec Ideal S128x64 .bf16) (r : Fin 10000) (f : Fin 64) :
    matmul dot_S10000x128_S128x64_S10000x64_1_0_0_1_n_n none A B (constant (F := Ideal) S10000x64 .f32 0x00000000#32) (ix2 r f)
      = ∑ k : Fin 128, A (ix2 r k) * B (ix2 k f) := by
  show FloatOps.matmul dot_S10000x128_S128x64_S10000x64_1_0_0_1_n_n none A B (constant (F := Ideal) S10000x64 .f32 0x00000000#32) (ix2 r f) = _
  rw [Ideal.matmul_constant_zero_apply,
    ← Equiv.sum_comp (contrEquiv1 dot_S10000x128_S128x64_S10000x64_1_0_0_1_n_n 128 rfl rfl).symm]
  refine Finset.sum_congr rfl fun k _ => ?_
  have c2 := contrEquiv1_symm_val dot_S10000x128_S128x64_S10000x64_1_0_0_1_n_n 128 rfl rfl k
  have l2 : dot_S10000x128_S128x64_S10000x64_1_0_0_1_n_n.lhsIdx (ix2 r f) ((contrEquiv1 _ 128 rfl rfl).symm k) = ix2 r k := by
    funext ax; apply Fin.ext
    match ax with
    | ⟨0, _⟩ => simp [DotDims.lhsIdx, dot_S10000x128_S128x64_S10000x64_1_0_0_1_n_n]; rfl
    | ⟨1, _⟩ => simp [DotDims.lhsIdx, dot_S10000x128_S128x64_S10000x64_1_0_0_1_n_n]; exact c2
  have r2 : dot_S10000x128_S128x64_S10000x64_1_0_0_1_n_n.rhsIdx (ix2 r f) ((contrEquiv1 _ 128 rfl rfl).symm k) = ix2 k f := by
    funext ax; apply Fin.ext
    match ax with
    | ⟨0, _⟩ => simp [DotDims.rhsIdx, dot_S10000x128_S128x64_S10000x64_1_0_0_1_n_n]; exact c2
    | ⟨1, _⟩ => simp [DotDims.rhsIdx, dot_S10000x128_S128x64_S10000x64_1_0_0_1_n_n]; rfl
  rw [l2, r2]

end Matmul

/-! ## The body's arithmetic at a cluster -/

section Payload

/-! The tile's arithmetic, stage by stage, at the exact values. -/

/-- The one-hot mask of a tile: row r's word against each of the 128 lane numbers. -/
def mMask (ids : Vec Ideal S10000x1 .i32) : IVec S10000x128 1 :=
  cmpi .eq (broadcastTo S10000x128 (shapeCast S10000x1 ids shapeCasts_S10000x1_S10000x1) broadcasts_S10000x1_S10000x128)
    (iota .tc S10000x128 32 [1] iota_S10000x128_d1_w32)

/-- The rows' cluster means: the one-hot rows times the table of means. -/
def mGath (ids : Vec Ideal S10000x1 .i32) (mu : Vec Ideal S128x64 .f32) : FVec Ideal S10000x64 .f32 :=
  matmul dot_S10000x128_S128x64_S10000x64_1_0_0_1_n_n none
    (truncf .bf16 (sitofp .f32 (extui 32 (mMask ids) natLt_1_32)) bitsLt_bf16_f32)
    (truncf .bf16 (shapeCast S128x64 mu shapeCasts_S128x64_S128x64) bitsLt_bf16_f32)
    (constant S10000x64 .f32 0x00000000#32)

/-- The rows' squared distances to their means, as a column. -/
def mSq (ids : Vec Ideal S10000x1 .i32) (mu : Vec Ideal S128x64 .f32) (x : Vec Ideal S10000x64 .f32) : FVec Ideal S10000x1 .f32 :=
  shapeCast S10000x1
    (multiReduction .add [1] S10000 (mulf (subf x (mGath ids mu)) (subf x (mGath ids mu))) 0x00000000#32
      reduces_S10000x64_S10000 (.inl rfl) rfl)
    shapeCasts_S10000_S10000x1

/-- The rows' hinged squared distances, as a column. -/
def mPt (ids : Vec Ideal S10000x1 .i32) (mu : Vec Ideal S128x64 .f32) (x : Vec Ideal S10000x64 .f32) : FVec Ideal S10000x1 .f32 :=
  mulf
    (maximumf (subf (sqrt (mSq ids mu x)) (broadcast S10000x1 (Scalar.ofBits .f32 0x3F000000#32)))
      (broadcast S10000x1 (Scalar.ofBits .f32 0x00000000#32)))
    (maximumf (subf (sqrt (mSq ids mu x)) (broadcast S10000x1 (Scalar.ofBits .f32 0x3F000000#32)))
      (broadcast S10000x1 (Scalar.ofBits .f32 0x00000000#32)))

/-- The tile's contribution to the 128 cluster sums. -/
def mCol (ids : Vec Ideal S10000x1 .i32) (mu : Vec Ideal S128x64 .f32) (x : Vec Ideal S10000x64 .f32) : FVec Ideal S128 .f32 :=
  multiReduction .add [0] S128
    (select (mMask ids)
      (broadcastTo S10000x128 (shapeCast S10000x1 (mPt ids mu x) shapeCasts_S10000x1_S10000x1) broadcasts_S10000x1_S10000x128)
      (broadcast S10000x128 (Scalar.ofBits .f32 0x00000000#32)))
    0x00000000#32 reduces_S10000x128_S128 (.inl rfl) rfl

/-- The body's arithmetic is these stages composed. -/
theorem pay2_eq (ids : Vec Ideal S10000x1 .i32) (mu : Vec Ideal S128x64 .f32) (x : Vec Ideal S10000x64 .f32)
    (acc : Vec Ideal S1x1x128 .f32) :
    k1_pay2 (F := Ideal) ids mu x acc
      = addf (shapeCast S1x1x128 acc shapeCasts_S1x1x128_S1x1x128)
          (shapeCast S1x1x128 (shapeCast S1x128 (mCol ids mu x) shapeCasts_S128_S1x128) shapeCasts_S1x128_S1x1x128) := rfl

/-- Row r's cluster mean read as the one-hot weighted sum over the table of means, feature f. -/
def gat (ids : Vec Ideal S10000x1 .i32) (mu : Vec Ideal S128x64 .f32) (r : Fin 10000) (f : Fin 64) : EReal :=
  ∑ k : Fin 128, (if ids (ix2 r 0) = Spec.wd k then (1 : EReal) else 0) * mu (ix2 k f)

/-- Row r's distance to that mean, hinged at 1/2 and squared. -/
def rowTerm (ids : Vec Ideal S10000x1 .i32) (mu : Vec Ideal S128x64 .f32) (x : Vec Ideal S10000x64 .f32) (r : Fin 10000) : EReal :=
  Spec.hingeSq (Ideal.sqrt (∑ f : Fin 64, (x (ix2 r f) - gat ids mu r f) * (x (ix2 r f) - gat ids mu r f)) - Spec.cHalf)

theorem mMask_apply (ids : Vec Ideal S10000x1 .i32) (r : Fin 10000) (k : Fin 128) :
    mMask ids (ix2 r k) = IntOp.cmpi .eq (ids (ix2 r 0)) (Spec.wd k) := by
  unfold mMask
  exact congrArg₂ (IntOp.cmpi .eq)
    ((broadcastTo_a1_ab_apply _ _ r k).trans (congrFun (shapeCast_self ids _) _))
    (iota_single_apply .tc S10000x128 32 1 _ (ix2 r k))

theorem mGath_apply (ids : Vec Ideal S10000x1 .i32) (mu : Vec Ideal S128x64 .f32) (r : Fin 10000) (f : Fin 64) :
    mGath ids mu (ix2 r f) = gat ids mu r f := by
  unfold mGath gat
  refine (matmul_rows_apply _ _ r f).trans (Finset.sum_congr rfl fun k _ => ?_)
  refine congrArg₂ (· * ·) ?_ (congrFun (shapeCast_self mu _) _)
  exact (congrArg (fun m : BitVec 1 => FloatOps.sitofp (F := Ideal) .f32 (m.setWidth 32)) (mMask_apply ids r k)).trans
    (sitofp_cmpi_eq _ _)

theorem mSq_apply (ids : Vec Ideal S10000x1 .i32) (mu : Vec Ideal S128x64 .f32) (x : Vec Ideal S10000x64 .f32) (r : Fin 10000) :
    mSq ids mu x (ix2 r 0) = ∑ f : Fin 64, (x (ix2 r f) - gat ids mu r f) * (x (ix2 r f) - gat ids mu r f) := by
  unfold mSq
  refine (shapeCast_a_a1_apply _ _ r 0).trans ?_
  refine (Ideal.multiReduction_add_single _ _ _ _ _ (ix1 r)).trans ?_
  refine Finset.sum_congr rfl fun f _ => ?_
  refine (congrArg _ (lift_cols reduces_S10000x64_S10000 r f)).trans ?_
  have e := mGath_apply ids mu r ⟨f.val, f.isLt⟩
  show (x (ix2 r ⟨f.val, f.isLt⟩) - mGath ids mu (ix2 r ⟨f.val, f.isLt⟩)) * (x (ix2 r ⟨f.val, f.isLt⟩) - mGath ids mu (ix2 r ⟨f.val, f.isLt⟩)) = _
  rw [e]
  rfl

theorem mPt_apply (ids : Vec Ideal S10000x1 .i32) (mu : Vec Ideal S128x64 .f32) (x : Vec Ideal S10000x64 .f32) (r : Fin 10000) :
    mPt ids mu x (ix2 r 0) = rowTerm ids mu x r := by
  have key : ∀ a : EReal, max (Ideal.sqrt a - Spec.cHalf) (Ideal.ofBits .f32 0x00000000#32)
      * max (Ideal.sqrt a - Spec.cHalf) (Ideal.ofBits .f32 0x00000000#32) = Spec.hingeSq (Ideal.sqrt a - Spec.cHalf) := fun a => by
    unfold Spec.hingeSq; rw [Ideal.ofBits_zero_f32]
  unfold mPt rowTerm
  exact (key (mSq ids mu x (ix2 r 0))).trans (congrArg (fun a => Spec.hingeSq (Ideal.sqrt a - Spec.cHalf)) (mSq_apply ids mu x r))

theorem mCol_apply (ids : Vec Ideal S10000x1 .i32) (mu : Vec Ideal S128x64 .f32) (x : Vec Ideal S10000x64 .f32) (k : Fin 128) :
    mCol ids mu x (ix1 k) = ∑ r : Fin 10000, (if ids (ix2 r 0) = Spec.wd k then rowTerm ids mu x r else 0) := by
  unfold mCol
  refine (Ideal.multiReduction_add_single _ _ _ _ _ (ix1 k)).trans ?_
  refine Finset.sum_congr rfl fun r _ => ?_
  refine (congrArg _ (lift_rows reduces_S10000x128_S128 k r)).trans ?_
  refine (congrArg (fun m : BitVec 1 => Scalar.select m _ _) (mMask_apply ids ⟨r.val, r.isLt⟩ k)).trans ?_
  refine (select_cmpi_eq _ _ _ _).trans ?_
  have hT := (broadcastTo_a1_ab_apply (shapeCast S10000x1 (mPt ids mu x) shapeCasts_S10000x1_S10000x1) broadcasts_S10000x1_S10000x128 ⟨r.val, r.isLt⟩ k).trans
    ((congrFun (shapeCast_self (mPt ids mu x) _) _).trans (mPt_apply ids mu x ⟨r.val, r.isLt⟩))
  have hZ : broadcast S10000x128 (Scalar.ofBits (F := Ideal) .f32 0x00000000#32) (ix2 (⟨r.val, r.isLt⟩ : Fin 10000) k) = (0 : EReal) :=
    Ideal.ofBits_zero_f32
  rw [hT, hZ]
  rfl

/-- The body's arithmetic at cluster k: what was carried, plus the sum over the tile's rows of cluster k of their
    hinged squared distances. -/
theorem pay2_apply (ids : Vec Ideal S10000x1 .i32) (mu : Vec Ideal S128x64 .f32) (x : Vec Ideal S10000x64 .f32)
    (acc : Vec Ideal S1x1x128 .f32) (k : Fin 128) :
    k1_pay2 (F := Ideal) ids mu x acc (ix3 0 0 k)
      = acc (ix3 0 0 k) + ∑ r : Fin 10000, (if ids (ix2 r 0) = Spec.wd k then rowTerm ids mu x r else 0) := by
  rw [pay2_eq]
  refine (addf_apply _ _ _).trans ?_
  refine congrArg₂ (· + ·) (congrFun (shapeCast_self acc _) _) ?_
  refine (shapeCast_ab_1ab_apply _ _ 0 0 k).trans ?_
  refine (shapeCast_a_1a_apply _ _ 0 k).trans ?_
  exact mCol_apply ids mu x k

end Payload

variable (V : (c : Dev nD) → (b : Ref sig .tc) → Buf (Elt Ideal) ((c : Thread nD τ).loc b))

/-! ## The tile's blocks read where they lie in the arrays -/

section Blocks

/-- At point t: the tile's block of features, its column of cluster words, and the table of means. -/
abbrev xblk (c : Dev nD) (t : Fin cfg1.N) : Vec Ideal S10000x64 .f32 := iblk1 V c 0 t
abbrev wblk (c : Dev nD) (t : Fin cfg1.N) : Vec Ideal S10000x1 .i32 := iblk1 V c 1 t
abbrev mblk (c : Dev nD) (t : Fin cfg1.N) : Vec Ideal S128x64 .f32 := iblk1 V c 2 t

/-- Where the windows' blocks lie at point t: the row blocks at block row t, the table of means at its one block, the
    per-half sums at block t / 50. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 50 ∧ win1_3.index t (1 : Fin 3) = 0 ∧ win1_3.index t (2 : Fin 3) = 0 :=
  (by decide +kernel : ∀ t : Fin grid1.N, _)

/-- Row r of the tile at point t, as a row of the million. -/
def rowAt (t : Fin cfg1.N) (r : Fin 10000) : Fin 1000000 :=
  ⟨t.val * 10000 + r.val, by have := t.isLt; have hN : cfg1.N = 100 := N_1; have := r.isLt; omega⟩

theorem xblk_apply (c : Dev nD) (t : Fin cfg1.N) (r : Fin 10000) (f : Fin 64) :
    xblk V c t (ix2 r f) = featOf V c (rowAt t r) f := by
  obtain ⟨e0, e1, -⟩ := idx_facts t
  unfold xblk iblk1 featOf
  rw [View.read_apply]
  show V c main_arg0 _ = V c main_arg0 _
  congr 1
  funext a; apply Fin.ext
  match a with
  | ⟨0, _⟩ => show win1_0.index t (0 : Fin 2) * 10000 + 1 * r.val = t.val * 10000 + r.val; omega
  | ⟨1, _⟩ => show win1_0.index t (1 : Fin 2) * 64 + 1 * f.val = f.val; omega

theorem wblk_apply (c : Dev nD) (t : Fin cfg1.N) (r : Fin 10000) :
    wblk V c t (ix2 r 0) = idsOf V c (rowAt t r) := by
  obtain ⟨-, -, e0, e1, -⟩ := idx_facts t
  unfold wblk iblk1 idsOf
  rw [View.read_apply]
  show V c main_v0 _ = V c main_v0 _
  congr 1
  funext a; apply Fin.ext
  match a with
  | ⟨0, _⟩ => show win1_1.index t (0 : Fin 2) * 10000 + 1 * r.val = t.val * 10000 + r.val; omega
  | ⟨1, _⟩ => show win1_1.index t (1 : Fin 2) * 1 + 1 * 0 = 0; omega

theorem mblk_apply (c : Dev nD) (t : Fin cfg1.N) (k : Fin 128) (f : Fin 64) :
    mblk V c t (ix2 k f) = meansOf V c k f := by
  obtain ⟨-, -, -, -, e0, e1, -⟩ := idx_facts t
  unfold mblk iblk1 meansOf
  rw [View.read_apply]
  show V c main_v9 _ = V c main_v9 _
  congr 1
  funext a; apply Fin.ext
  match a with
  | ⟨0, _⟩ => show win1_2.index t (0 : Fin 2) * 128 + 1 * k.val = k.val; omega
  | ⟨1, _⟩ => show win1_2.index t (1 : Fin 2) * 64 + 1 * f.val = f.val; omega

end Blocks

/-! ## The running sum over the tiles of a half -/

section Fold

/-- The tile at point t: the sum, over its rows of cluster k, of the hinged squared distances to the one-hot mean. -/
def tileSum (c : Dev nD) (k : Fin 128) (t : Fin cfg1.N) : EReal :=
  ∑ r : Fin 10000, if idsOf V c (rowAt t r) = Spec.wd k
    then Spec.ppOf (featOf V c) (Spec.gathK (idsOf V c) (meansOf V c) (rowAt t r)) (rowAt t r) else 0

/-- The same at a bare number, nothing past the grid. -/
def tileSumN (c : Dev nD) (k : Fin 128) (n : ℕ) : EReal := if h : n < cfg1.N then tileSum V c k ⟨n, h⟩ else 0

/-- The tile's contribution as the body computes it from its blocks is that sum over the rows where they lie. -/
theorem tile_eq (c : Dev nD) (k : Fin 128) (t : Fin cfg1.N) :
    (∑ r : Fin 10000, (if wblk V c t (ix2 r 0) = Spec.wd k then rowTerm (wblk V c t) (mblk V c t) (xblk V c t) r else 0))
      = tileSum V c k t := by
  unfold tileSum
  refine Finset.sum_congr rfl fun r _ => ?_
  have hw := wblk_apply V c t r
  have hrow : rowTerm (wblk V c t) (mblk V c t) (xblk V c t) r
      = Spec.ppOf (featOf V c) (Spec.gathK (idsOf V c) (meansOf V c) (rowAt t r)) (rowAt t r) := by
    unfold rowTerm Spec.ppOf
    have hg : ∀ f : Fin 64, gat (wblk V c t) (mblk V c t) r f = Spec.gathK (idsOf V c) (meansOf V c) (rowAt t r) f := fun f => by
      unfold gat Spec.gathK
      refine Finset.sum_congr rfl fun k' _ => ?_
      rw [hw, mblk_apply V c t k' f]
    have hs : (∑ f : Fin 64, (xblk V c t (ix2 r f) - gat (wblk V c t) (mblk V c t) r f) * (xblk V c t (ix2 r f) - gat (wblk V c t) (mblk V c t) r f))
        = ∑ f : Fin 64, (featOf V c (rowAt t r) f - Spec.gathK (idsOf V c) (meansOf V c) (rowAt t r) f)
            * (featOf V c (rowAt t r) f - Spec.gathK (idsOf V c) (meansOf V c) (rowAt t r) f) :=
      Finset.sum_congr rfl fun f _ => by rw [hg f, xblk_apply V c t r f]
    rw [hs]
  rw [hw, hrow]

/-- At the first tile of a half the block ends holding that tile's sum. -/
theorem stepA (c : Dev nD) (k : Fin 128) (t : Fin cfg1.N) (h0 : t.val % 50 = 0) :
    (outsAt1 V c t.val t.isLt : S1x1x128.Idx → EReal) (ix3 0 0 k) = tileSum V c k t := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) ((hcond1_0 t).mpr h0) (xblk V c t) (wblk V c t) (mblk V c t)) (ix3 0 0 k)).trans ?_
  refine (pay2_apply (wblk V c t) (mblk V c t) (xblk V c t) (k1_pay1 (F := Ideal)) k).trans ?_
  rw [tile_eq V c k t]
  show Ideal.ofBits .f32 0x00000000#32 + _ = _
  rw [Ideal.ofBits_zero_f32, zero_add]

/-- At every other tile it ends holding what the tile before left plus this tile's sum. -/
theorem stepB (c : Dev nD) (k : Fin 128) (t : Fin cfg1.N) (h0 : ¬t.val % 50 = 0) :
    (outsAt1 V c t.val t.isLt : S1x1x128.Idx → EReal) (ix3 0 0 k)
      = (outsAt1 V c (t.val - 1) (Nat.lt_of_le_of_lt (Nat.sub_le _ _) t.isLt) : S1x1x128.Idx → EReal) (ix3 0 0 k) + tileSum V c k t := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (fun h => h0 ((hcond1_0 t).mp h)) (xblk V c t) (wblk V c t) (mblk V c t)
    (outsAt1 V c (t.val - 1) (Nat.lt_of_le_of_lt (Nat.sub_le _ _) t.isLt))) (ix3 0 0 k)).trans ?_
  refine (pay2_apply (wblk V c t) (mblk V c t) (xblk V c t) _ k).trans ?_
  rw [tile_eq V c k t]

/-- So after point n the block holds the sum of the tiles of n's half up to n. -/
theorem outsAt_eq (c : Dev nD) (k : Fin 128) : ∀ (n : ℕ) (h : n < cfg1.N),
    (outsAt1 V c n h : S1x1x128.Idx → EReal) (ix3 0 0 k) = ∑ s ∈ Finset.range (n % 50 + 1), tileSumN V c k (n - n % 50 + s)
  | 0, h => by
    rw [stepA V c k ⟨0, h⟩ (Nat.zero_mod _)]
    simp [tileSumN, h]
  | n + 1, h => by
    by_cases h0 : (n + 1) % 50 = 0
    · rw [stepA V c k ⟨n + 1, h⟩ h0, h0]
      simp [tileSumN, h]
    · rw [stepB V c k ⟨n + 1, h⟩ h0]
      show (outsAt1 V c n _ : S1x1x128.Idx → EReal) (ix3 0 0 k) + _ = _
      rw [outsAt_eq c k n (Nat.lt_of_succ_lt h)]
      have e1 : (n + 1) % 50 = n % 50 + 1 := by omega
      have e2 : n + 1 - (n % 50 + 1) = n - n % 50 := by omega
      have e3 : n - n % 50 + (n % 50 + 1) = n + 1 := by omega
      rw [e1, e2, Finset.sum_range_succ _ (n % 50 + 1), e3]
      congr 1
      simp [tileSumN, h]

/-- At the last tile of a half the block holds the half's whole sum. -/
theorem outsAt_last (c : Dev nD) (k : Fin 128) (t : Fin cfg1.N) (h49 : t.val % 50 = 49) (cc : Fin 2) (hcc : cc.val = t.val / 50) :
    (outsAt1 V c t.val t.isLt : S1x1x128.Idx → EReal) (ix3 0 0 k)
      = Spec.varCore (featOf V c) (idsOf V c) (meansOf V c) cc k := by
  have hN : cfg1.N = 100 := N_1
  have ht := t.isLt
  rw [outsAt_eq V c k t.val t.isLt, h49]
  unfold Spec.varCore
  rw [Finset.sum_range]
  refine Finset.sum_congr rfl fun i _ => ?_
  have hi := i.isLt
  have hlt : t.val - 49 + i.val < cfg1.N := by omega
  unfold tileSumN
  rw [dif_pos hlt]
  unfold tileSum
  refine Finset.sum_congr rfl fun r _ => ?_
  have hr : rowAt ⟨t.val - 49 + i.val, hlt⟩ r = Spec.row cc i r :=
    Fin.ext (by show (t.val - 49 + i.val) * 10000 + r.val = (cc.val * 50 + i.val) * 10000 + r.val; omega)
  rw [hr]

end Fold

/-! ## The array of per-half sums after the pass -/

section Final

/-- What the array of per-half sums ends holding: entry (cc, 0, k) is half cc's sum for cluster k. -/
def G (c : Dev nD) : Vec Ideal S2x1x128 .f32 :=
  fun i => Spec.varCore (featOf V c) (idsOf V c) (meansOf V c) (i 0) (i 2)

/-- The last tile of a half writes back that half's block of sums. -/
theorem flushed_eq (c : Dev nD) (t : Fin cfg1.N) (hf : (cfg1.win 3).flush t = true) :
    (dat1 V c).flushed 3 t = ((cfg1.win 3).blk t).view.read (Elt Ideal) (G V c) := by
  have h49 : t.val % 50 = 49 := (flush1_3 t).mp hf
  have hN : cfg1.N = 100 := N_1
  have ht := t.isLt
  obtain ⟨-, -, -, -, -, -, e0, e1, e2⟩ := idx_facts t
  show (cfg1.win 3).cut (grid1.coords t) ((dat1 V c).after 3 t) = _
  rw [after1_3]
  funext y
  obtain ⟨u, v, k, rfl⟩ : ∃ (u : Fin 1) (v : Fin 1) (k : Fin 128), y = ix3 u v k :=
    ⟨y 0, y 1, y 2, eq_ix3 (n0 := 1) (n1 := 1) (n2 := 128) y⟩
  obtain rfl : u = 0 := Subsingleton.elim _ _
  obtain rfl : v = 0 := Subsingleton.elim _ _
  rw [View.read_apply]
  have hemb : ((cfg1.win 3).blk t).view.emb (ix3 (0 : Fin 1) (0 : Fin 1) k)
      = ix3 (⟨t.val / 50, by omega⟩ : Fin 2) (0 : Fin 1) k := by
    funext a; apply Fin.ext
    match a with
    | ⟨0, _⟩ => show win1_3.index t (0 : Fin 3) * 1 + 1 * 0 = t.val / 50; omega
    | ⟨1, _⟩ => show win1_3.index t (1 : Fin 3) * 1 + 1 * 0 = 0; omega
    | ⟨2, _⟩ => show win1_3.index t (2 : Fin 3) * 128 + 1 * k.val = k.val; omega
  show (outsAt1 V c t.val t.isLt : S1x1x128.Idx → EReal) (ix3 0 0 k) = G V c (((cfg1.win 3).blk t).view.emb (ix3 (0 : Fin 1) (0 : Fin 1) k))
  rw [hemb]
  exact outsAt_last V c k t h49 ⟨t.val / 50, by omega⟩ rfl

/-- After the pass, entry (cc, 0, k) is half cc's sum over cluster k's rows of the hinged squared distances. -/
theorem var_final (c : Dev nD) (cc : Fin 2) (k : Fin 128) :
    ((dat1 V c).arrAt 3 cfg1.N : S2x1x128.Idx → EReal) (ix3 cc 0 k)
      = Spec.varCore (featOf V c) (idsOf V c) (meansOf V c) cc k := by
  have hN : cfg1.N = 100 := N_1
  have hfin : (dat1 V c).arrAt 3 cfg1.N = G V c :=
    (dat1 V c).arrAt_eq_of_cover 3 (G V c) (flushed_eq V c) fun i => by
      have hi0 : (i 0).val < 2 := (i 0).isLt
      have hi1 : (i 1).val < 1 := (i 1).isLt
      have hi2 : (i 2).val < 128 := (i 2).isLt
      have hp : (i 0).val * 50 + 49 < cfg1.N := by omega
      refine ⟨⟨(i 0).val * 50 + 49, hp⟩, (flush1_3 _).mpr (by show ((i 0).val * 50 + 49) % 50 = 49; omega), ?_⟩
      obtain ⟨-, -, -, -, -, -, e0, e1, e2⟩ := idx_facts (⟨(i 0).val * 50 + 49, hp⟩ : Fin cfg1.N)
      have e0' : win1_3.index ⟨(i 0).val * 50 + 49, hp⟩ (0 : Fin 3) = (i 0).val := by rw [e0]; show ((i 0).val * 50 + 49) / 50 = (i 0).val; omega
      show i ∈ ((View.whole main_v10).slice (win1_3.rect ⟨(i 0).val * 50 + 49, hp⟩)).set
      rw [View.set_slice_whole, Rect.mem_set_unit]
      intro a
      match a with
      | ⟨0, _⟩ =>
        show win1_3.index ⟨(i 0).val * 50 + 49, hp⟩ (0 : Fin 3) * 1 ≤ (i 0).val ∧ (i 0).val < win1_3.index ⟨(i 0).val * 50 + 49, hp⟩ (0 : Fin 3) * 1 + 1
        rw [e0']; omega
      | ⟨1, _⟩ =>
        show win1_3.index ⟨(i 0).val * 50 + 49, hp⟩ (1 : Fin 3) * 1 ≤ (i 1).val ∧ (i 1).val < win1_3.index ⟨(i 0).val * 50 + 49, hp⟩ (1 : Fin 3) * 1 + 1
        rw [e1]; omega
      | ⟨2, _⟩ =>
        show win1_3.index ⟨(i 0).val * 50 + 49, hp⟩ (2 : Fin 3) * 128 ≤ (i 2).val ∧ (i 2).val < win1_3.index ⟨(i 0).val * 50 + 49, hp⟩ (2 : Fin 3) * 128 + 128
        rw [e2]; omega
  rw [hfin]
  rfl

end Final

end Cert.KernelIdeal.R1

end
-- ==== Proof.Region2.lean ====
/-
  The pairwise pass, one point: from the table of means, the Gram matrix and the squared norms give every pair's squared
  distance (clipped at zero); off the diagonal 3 minus its root is hinged at zero and squared; each row is summed.
-/
import proofs.«416575_j4896262717860_3_alg».proof.Proof.KArrays
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.R2

open Cert.KernelIdeal Cert.KernelIdeal.Gen Idealize.ShloMosaic Idealize.ShloMosaic.ValueIdx Idealize.ShloMosaic.TcCoe Idealize.SL.Sem
open Idealize.ShloMosaic.Pipeline (Dat)
open Cert.KernelIdeal.KV

variable (V : (c : Dev nD) → (b : Ref sig .tc) → Buf (Elt Ideal) ((c : Thread nD τ).loc b))

/-! ## From the one point to the array

The grid has one point; both windows' blocks there are their whole arrays. -/

theorem zero_offsets : (![0, 0] : Fin 2 → Nat) = fun _ => 0 := funext fun a => by fin_cases a <;> rfl

/-- The array of row sums the one point leaves: the body's store over the block of means. -/
abbrev result (c : Dev nD) : Buf (Elt Ideal) ((c : Thread nD τ).loc main_v16) := out2_1 (iblk2 V c 0 t2_0)

/-- The one write-back writes it: block (0, 0) of the [128, 1] array, read through zero offsets, is the array. -/
theorem flushed_eq (c : Dev nD) (t : Fin cfg2.N) (hf : (cfg2.win 1).flush t = true) :
    (dat2 V c).flushed 1 t = ((cfg2.win 1).blk t).view.read (Elt Ideal) (result V c) := by
  obtain rfl : t = t2_0 := fin_N2 t
  show (cfg2.win 1).cut (grid2.coords t2_0) ((dat2 V c).after 1 t2_0) = _
  rw [after2_1]
  have hz' : (fun a => win2_1.index t2_0 a * main_v16.ty.shape.size a) = fun _ => 0 := funext fun a => by fin_cases a <;> decide
  exact (Memref.read_access_unit_zero (Elt Ideal) main_v16 hz' (fun a => by rw [congrFun hz' a]; simp) (result V c)).symm

/-- So the array of row sums ends holding it: the one point covers every entry. -/
theorem final_rows (c : Dev nD) : (dat2 V c).arrAt 1 cfg2.N = result V c :=
  (dat2 V c).arrAt_eq_of_cover 1 (result V c) (flushed_eq V c) fun i =>
    ⟨t2_0, flush2_1 t2_0, by
      show i ∈ ((View.whole main_v16).slice (win2_1.rect t2_0)).set
      rw [View.set_slice_whole, Rect.mem_set_unit]
      intro a
      have h0 : (i 0 : Nat) < 128 := (i 0).isLt
      have h1 : (i 1 : Nat) < 1 := (i 1).isLt
      match a with
      | ⟨0, _⟩ => show win2_1.index t2_0 0 * win2_1.size 0 ≤ (i 0 : Nat) ∧ (i 0 : Nat) < win2_1.index t2_0 0 * win2_1.size 0 + win2_1.xsize (grid2.coords t2_0) 0
                  rw [show win2_1.index t2_0 0 * win2_1.size 0 = 0 from by decide +kernel, show win2_1.xsize (grid2.coords t2_0) 0 = 128 from by decide +kernel]; omega
      | ⟨1, _⟩ => show win2_1.index t2_0 1 * win2_1.size 1 ≤ (i 1 : Nat) ∧ (i 1 : Nat) < win2_1.index t2_0 1 * win2_1.size 1 + win2_1.xsize (grid2.coords t2_0) 1
                  rw [show win2_1.index t2_0 1 * win2_1.size 1 = 0 from by decide +kernel, show win2_1.xsize (grid2.coords t2_0) 1 = 1 from by decide +kernel]; omega⟩

/-- The means' block at the one point is the whole table. -/
theorem iblk_means (c : Dev nD) : iblk2 V c 0 t2_0 = V c main_v9 := by
  unfold iblk2
  have hz' : (fun a => win2_0.index t2_0 a * main_v9.ty.shape.size a) = fun _ => 0 := funext fun a => by fin_cases a <;> decide
  exact Memref.read_access_unit_zero (Elt Ideal) main_v9 hz' (fun a => by rw [congrFun hz' a]; simp) (V c main_v9)

/-- What the body leaves in the row sums' buffer is its one store's payload over the block of means. -/
theorem out_eq (x0 : Vec Ideal S128x64 .f32) : out2_1 x0 = k2_pay1 x0 := by
  unfold out2_1
  rw [View.canon_unit_zero zero_offsets]
  simp only [View.ld_unit_zero (S := S128x64) zero_offsets]

/-! ## Two layout operations read at an index -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane sums and the squared norms -/

/-- A lane sum over the 64 features of row `i`. -/
theorem laneSum64 (src : FVec Ideal S128x64 .f32) (i : Fin 128) :
    multiReduction (F := Ideal) .add [1] S128 src 0x00000000#32 reduces_S128x64_S128 (.inl rfl) rfl (ix1 i)
      = ∑ f : Fin 64, src (ix2 i f) := by
  refine (Ideal.multiReduction_add_single src _ reduces_S128x64_S128 _ _ (ix1 i)).trans ?_
  refine Finset.sum_congr rfl fun f _ => congrArg src (funext fun c => Fin.ext ?_)
  rw [Shape.Reduces.lift_val]
  match c with
  | ⟨0, _⟩ => rfl
  | ⟨1, _⟩ => rfl

/-- A lane sum over the 128 columns of row `i`. -/
theorem laneSum128 (src : FVec Ideal S128x128 .f32) (i : Fin 128) :
    multiReduction (F := Ideal) .add [1] S128 src 0x00000000#32 reduces_S128x128_S128 (.inl rfl) rfl (ix1 i)
      = ∑ j : Fin 128, src (ix2 i j) := by
  refine (Ideal.multiReduction_add_single src _ reduces_S128x128_S128 _ _ (ix1 i)).trans ?_
  refine Finset.sum_congr rfl fun f _ => congrArg src (funext fun c => Fin.ext ?_)
  rw [Shape.Reduces.lift_val]
  match c with
  | ⟨0, _⟩ => rfl
  | ⟨1, _⟩ => rfl

/-- The squared norm of row `i`, read from the column of norms. -/
theorem normCol (x : FVec Ideal S128x64 .f32) (i : Fin 128) (u : Fin 1) :
    shapeCast S128x1 (multiReduction (F := Ideal) .add [1] S128 (mulf x x) 0x00000000#32 reduces_S128x64_S128 (.inl rfl) rfl)
        shapeCasts_S128_S128x1 (ix2 i u) = ∑ f : Fin 64, x (ix2 i f) * x (ix2 i f) :=
  (shapeCast_a_a1_apply _ _ i u).trans (laneSum64 _ i)

/-- The column of norms spread over the columns: at \`(i, j)\` the squared norm of row \`i\`. -/
theorem normColB (x : FVec Ideal S128x64 .f32) (i j : Fin 128) :
    broadcastTo S128x128 (shapeCast S128x1 (multiReduction (F := Ideal) .add [1] S128 (mulf x x) 0x00000000#32 reduces_S128x64_S128 (.inl rfl) rfl)
        shapeCasts_S128_S128x1) broadcasts_S128x1_S128x128 (ix2 i j) = ∑ f : Fin 64, x (ix2 i f) * x (ix2 i f) :=
  (broadcastTo_a1_ab_apply _ _ i j).trans (normCol x i 0)

/-- The column of norms transposed to a row and spread over the rows: at \`(i, j)\` the squared norm of row \`j\`. -/
theorem normRowB (x : FVec Ideal S128x64 .f32) (i j : Fin 128) :
    broadcastTo S128x128 (transpose S1x128 [1, 0] (shapeCast S128x1 (multiReduction (F := Ideal) .add [1] S128 (mulf x x) 0x00000000#32 reduces_S128x64_S128 (.inl rfl) rfl)
        shapeCasts_S128_S128x1) transposes_S128x1_p1_0_S1x128) broadcasts_S1x128_S128x128 (ix2 i j) = ∑ f : Fin 64, x (ix2 j f) * x (ix2 j f) :=
  (broadcastTo_1b_ab_apply _ _ i j).trans ((transpose_ix2_apply _ _ (0 : Fin 1) j).trans (normCol x j 0))

/-! ## The Gram matrix -/

/-- The four index maps of the product, coordinate by coordinate: the left operand reads the output's row and the
    shared coordinate, the right operand the shared coordinate and the output's column. -/
theorem gram_lhs_0 (j : S128x128.Idx) (k : dot_S128x64_S64x128_S128x128_1_0_0_1_n_n.contr.Idx) :
    (dot_S128x64_S64x128_S128x128_1_0_0_1_n_n.lhsIdx j k 0).val = (j 0).val := by
  simp [DotDims.lhsIdx, dot_S128x64_S64x128_S128x128_1_0_0_1_n_n]; rfl

theorem gram_lhs_1 (j : S128x128.Idx) (k : dot_S128x64_S64x128_S128x128_1_0_0_1_n_n.contr.Idx) :
    (dot_S128x64_S64x128_S128x128_1_0_0_1_n_n.lhsIdx j k 1).val = (k ⟨0, Nat.one_pos⟩).val :=
  DotDims.lhsIdx_val_of_single _ rfl j k

theorem gram_rhs_0 (j : S128x128.Idx) (k : dot_S128x64_S64x128_S128x128_1_0_0_1_n_n.contr.Idx) :
    (dot_S128x64_S64x128_S128x128_1_0_0_1_n_n.rhsIdx j k 0).val = (k ⟨0, Nat.one_pos⟩).val :=
  DotDims.rhsIdx_val_of_single _ rfl j k

theorem gram_rhs_1 (j : S128x128.Idx) (k : dot_S128x64_S64x128_S128x128_1_0_0_1_n_n.contr.Idx) :
    (dot_S128x64_S64x128_S128x128_1_0_0_1_n_n.rhsIdx j k 1).val = (j 1).val := by
  simp [DotDims.rhsIdx, dot_S128x64_S64x128_S128x128_1_0_0_1_n_n]; rfl

/-- The product of a table with a second one into the zero block, at `(i, j)`: the sum over the 64 shared
    coordinates. -/
theorem matmul_apply64 (a : FVec Ideal S128x64 .bf16) (b : FVec Ideal S64x128 .bf16) (i j : Fin 128) :
    matmul dot_S128x64_S64x128_S128x128_1_0_0_1_n_n none a b (constant (F := Ideal) S128x128 .f32 0x00000000#32) (ix2 i j)
      = ∑ f : Fin 64, a (ix2 i f) * b (ix2 f j) := by
  refine (Ideal.matmul_constant_zero_apply dot_S128x64_S64x128_S128x128_1_0_0_1_n_n none a b (ix2 i j)).trans ?_
  rw [← Equiv.sum_comp (contrEquiv1 dot_S128x64_S64x128_S128x128_1_0_0_1_n_n 64 rfl rfl).symm]
  refine Finset.sum_congr rfl fun f _ => ?_
  congr 1
  · refine congrArg a (funext fun c => Fin.ext ?_)
    match c with
    | ⟨0, _⟩ => exact gram_lhs_0 _ _
    | ⟨1, _⟩ => exact (gram_lhs_1 _ _).trans (contrEquiv1_symm_val dot_S128x64_S64x128_S128x128_1_0_0_1_n_n 64 rfl rfl f)
  · refine congrArg b (funext fun c => Fin.ext ?_)
    match c with
    | ⟨0, _⟩ => exact (gram_rhs_0 _ _).trans (contrEquiv1_symm_val dot_S128x64_S64x128_S128x128_1_0_0_1_n_n 64 rfl rfl f)
    | ⟨1, _⟩ => exact gram_rhs_1 _ _

/-- The Gram matrix of the table at `(i, j)`: the inner product of rows `i` and `j`. -/
theorem gram_apply (x : FVec Ideal S128x64 .f32) (i j : Fin 128) :
    matmul dot_S128x64_S64x128_S128x128_1_0_0_1_n_n none (truncf .bf16 x bitsLt_bf16_f32)
        (transpose S64x128 [1, 0] (truncf .bf16 x bitsLt_bf16_f32) transposes_S128x64_p1_0_S64x128)
        (constant (F := Ideal) S128x128 .f32 0x00000000#32) (ix2 i j)
      = ∑ f : Fin 64, x (ix2 i f) * x (ix2 j f) := by
  refine (matmul_apply64 _ _ i j).trans ?_
  refine Finset.sum_congr rfl fun f _ => ?_
  rw [transpose_ix2_apply]
  rfl

/-! ## The diagonal -/

/-- The two coordinate counters agree exactly on the diagonal. -/
theorem diag_eq (i j : Fin 128) (h : i = j) :
    cmpi .eq (iota .tc S128x128 32 [0] iota_S128x128_d0_w32) (iota .tc S128x128 32 [1] iota_S128x128_d1_w32) (ix2 i j) = 1#1 := by
  show IntOp.cmpi .eq (iota .tc S128x128 32 [0] iota_S128x128_d0_w32 (ix2 i j)) (iota .tc S128x128 32 [1] iota_S128x128_d1_w32 (ix2 i j)) = 1#1
  rw [iota_single_apply, iota_single_apply, IntOp.cmpi_eq, h]

theorem diag_ne (i j : Fin 128) (h : i ≠ j) :
    cmpi .eq (iota .tc S128x128 32 [0] iota_S128x128_d0_w32) (iota .tc S128x128 32 [1] iota_S128x128_d1_w32) (ix2 i j) = 0#1 := by
  show IntOp.cmpi .eq (iota .tc S128x128 32 [0] iota_S128x128_d0_w32 (ix2 i j)) (iota .tc S128x128 32 [1] iota_S128x128_d1_w32 (ix2 i j)) = 0#1
  refine eq_zero_of_ne_one fun hc => h ?_
  rw [iota_single_apply, iota_single_apply, IntOp.cmpi_eq] at hc
  have hi : i.val < 128 := i.isLt
  have hj : j.val < 128 := j.isLt
  have := congrArg BitVec.toNat hc
  simp only [BitVec.toNat_ofNat] at this
  exact Fin.ext (by
    show i.val = j.val
    have e1 : ((ix2 i j : S128x128.Idx) 0).val = i.val := rfl
    have e2 : ((ix2 i j : S128x128.Idx) 1).val = j.val := rfl
    rw [e1, e2] at this
    omega)

/-! ## The payload at an index -/

theorem sqrt_apply' {s : Shape} {φ : FTy} (a : FVec Ideal s φ) (i : s.Idx) : sqrt a i = Ideal.sqrt (a i) := rfl

/-- The body's payload over a table `x` of means, at `(i, 0)`: row `i` of the distance loss. -/
theorem pay_apply (x : Vec Ideal S128x64 .f32) (i : Fin 128) :
    k2_pay1 x (ix2 i 0) = Spec.rowsumK (fun k f => x (ix2 k f)) i := by
  unfold k2_pay1
  dsimp only
  refine (shapeCast_a_a1_apply _ _ i 0).trans ?_
  refine (laneSum128 _ i).trans ?_
  unfold Spec.rowsumK
  refine Finset.sum_congr rfl fun j _ => ?_
  simp only [shapeCast_self, select_apply, mulf_apply, maximumf_apply, subf_apply, addf_apply, broadcast_apply, sqrt_apply', Ideal.ofBits_def]
  rw [normColB x i j, normRowB x i j, gram_apply x i j]
  unfold Spec.dlOf
  by_cases h : i = j
  · rw [diag_eq i j h, select_one, if_pos h, Ideal.ofBits_zero_f32]
  · rw [diag_ne i j h, select_zero, select_zero, if_neg h, if_neg h, Ideal.ofBits_zero_f32]
    rfl

/-! ## The row sums of the distance loss -/

/-- After the pass, entry (i, 0) is cluster i's row of the distance loss. -/
theorem rowsum_final (c : Dev nD) (i : Fin 128) :
    ((dat2 V c).arrAt 1 cfg2.N : S128x1.Idx → EReal) (ix2 i 0) = Spec.rowsumK (meansOf V c) i := by
  rw [final_rows V c]
  show out2_1 (iblk2 V c 0 t2_0) (ix2 i 0) = _
  rw [iblk_means V c]
  refine (congrFun (out_eq (V c main_v9)) (ix2 i 0)).trans ?_
  exact pay_apply (V c main_v9) i

end Cert.KernelIdeal.R2

end
-- ==== Proof.KHost.lean ====
/-
  The tiled program end to end, as a value: the label column is sliced out, the first pass leaves per-half sums and
  counts, the host adds the halves, guards the counts by one and divides (the means); the second pass leaves per-half
  variance sums, the host adds them, divides by the guarded counts, sums and divides by 128; the pairwise pass leaves
  row sums, the host sums them and divides by 128·127; the result is the sum of the two losses.

  Each buffer is followed from the launch memory to the place it is read: a host stretch rewrites only the buffers
  its operations name, a pass rewrites only its own output arrays, and every host operation is read at an index
  (a sum over the halves, over the clusters or over the rows from a zero word; a quotient; a maximum; a view or a spread
  of an array reads the one operand entry it copies).
-/
import proofs.«416575_j4896262717860_3_alg».proof.Proof.Region0
import proofs.«416575_j4896262717860_3_alg».proof.Proof.Region1
import proofs.«416575_j4896262717860_3_alg».proof.Proof.Region2
import Idealize.ShloMosaic.Lib.StableHlo.Run
import Idealize.ShloMosaic.Lib.IdealHost
import Idealize.ShloMosaic.Lib.ValueLayout

noncomputable section

namespace Cert.KernelIdeal.KH

open Cert.KernelIdeal Cert.KernelIdeal.Gen Idealize.ShloMosaic Idealize.ShloMosaic.ValueIdx Idealize.ShloMosaic.TcCoe Idealize.SL.Sem
open Idealize.ShloMosaic.Pipeline (Dat)
open Cert.KernelIdeal.KV

section Follow

variable (m : (ℓ : Loc nD τ sig) → Buf (Elt Ideal) ℓ) (ρ : Dev nD → PrngReg) (c : Dev nD)

/-! ## The first host stretch: the label column sliced out -/

/-- The feature table enters the first pass as launched. -/
theorem W1_arg0 : W1 m ρ c (Proc.devRef .tc main_arg0) = m ((c : Thread nD τ).loc main_arg0) := by
  show StableHlo.after hostOps0 _ (Proc.devRef .tc main_arg0) = _
  after_results

theorem feat1 : featOf (V1 m ρ) c = featM m c := by
  funext n f
  show (W1 m ρ c (Proc.devRef .tc main_arg0) : S1000000x64.Idx → EReal) (ix2 n f) = _
  rw [W1_arg0]
  rfl

/-- The column of cluster words is column 1 of the label pairs. -/
theorem W1_v0 : (W1 m ρ c (Proc.devRef .tc main_v0) : S1000000x1.Idx → BitVec 32)
    = extractStridedSlice S1000000x1 ![0, 1] (m ((c : Thread nD τ).loc main_arg1) : S1000000x2.Idx → BitVec 32) slices_S1000000x2_S1000000x1_0_1 := by
  show StableHlo.after hostOps0 _ (Proc.devRef .tc main_v0) = _
  after_results

theorem ids1 : idsOf (V1 m ρ) c = idsM m c := by
  funext n
  show (W1 m ρ c (Proc.devRef .tc main_v0) : S1000000x1.Idx → BitVec 32) (ix2 n 0) = _
  rw [W1_v0]
  exact slice2_axis1_apply 1 _ _ n 0 1 rfl

/-! ## Reductions and layout operations of the host read at an index -/

/-- Adding the two halves of a [2,128,64] array from a zero word: at (k,f) the sum over the halves. -/
theorem addHalves_sums (X : S2x128x64.Idx → EReal) (z : S_.Idx → EReal) (hz : ∀ i, z i = 0) (k : Fin 128) (f : Fin 64) :
    Host.reduceAdd (F := Ideal) (φ := .f32) X z reducesTo_S2x128x64_S128x64_d0 h_S_ (ix2 k f) = ∑ cc : Fin 2, X (ix3 cc k f) := by
  have h : S2x128x64.Reduces [0] S128x64 := by decide
  rw [hostReduceAdd_apply, Ideal.hostReduceAdd_single _ h, hz, zero_add]
  refine Finset.sum_congr rfl fun cc _ => congrArg X ?_
  funext a
  match a with
  | ⟨0, _⟩ => rfl
  | ⟨1, _⟩ => rfl
  | ⟨2, _⟩ => rfl

/-- Adding the two halves of a [2,1,128] array from a zero word: at (0,k) the sum over the halves. -/
theorem addHalves_row (X : S2x1x128.Idx → EReal) (z : S_.Idx → EReal) (hz : ∀ i, z i = 0) (k : Fin 128) :
    Host.reduceAdd (F := Ideal) (φ := .f32) X z reducesTo_S2x1x128_S1x128_d0 h_S_ (ix2 0 k) = ∑ cc : Fin 2, X (ix3 cc 0 k) := by
  have h : S2x1x128.Reduces [0] S1x128 := by decide
  rw [hostReduceAdd_apply, Ideal.hostReduceAdd_single _ h, hz, zero_add]
  refine Finset.sum_congr rfl fun cc _ => congrArg X ?_
  funext a
  match a with
  | ⟨0, _⟩ => rfl
  | ⟨1, _⟩ => rfl
  | ⟨2, _⟩ => rfl

/-- Summing a [128] array from a zero word: the sum over the clusters. -/
theorem sumClusters (X : S128.Idx → EReal) (z : S_.Idx → EReal) (hz : ∀ i, z i = 0) (j : S_.Idx) :
    Host.reduceAdd (F := Ideal) (φ := .f32) X z reducesTo_S128_S_d0 h_S_ j = ∑ k : Fin 128, X (ix1 k) := by
  rw [hostReduceAdd_apply, Ideal.hostReduceAdd_total _ (fun b => b.elim0), hz, zero_add]
  exact (Fintype.sum_equiv ⟨fun k : Fin 128 => (ix1 k : S128.Idx), fun i => i 0, fun _ => rfl, fun i => (eq_ix1 i).symm⟩
    (fun k => X (ix1 k)) X fun _ => rfl).symm

/-- Summing a [128,1] array over both axes from a zero word: the sum over the rows. -/
theorem sumRows (X : S128x1.Idx → EReal) (z : S_.Idx → EReal) (hz : ∀ i, z i = 0) (j : S_.Idx) :
    Host.reduceAdd (F := Ideal) (φ := .f32) X z reducesTo_S128x1_S_d0_1 h_S_ j = ∑ i : Fin 128, X (ix2 i 0) := by
  rw [hostReduceAdd_apply, Ideal.hostReduceAdd_total _ (fun b => b.elim0), hz, zero_add, sum_idx2]
  refine Finset.sum_congr rfl fun i _ => ?_
  exact Fin.sum_univ_one _

/-- A [1,128] array viewed [128], a scalar spread over [128], a [128] array spread over [128,1] and a [128,1] array spread over
    [128,64], each read at an index. -/
theorem castRow_apply (x : S1x128.Idx → EReal) (k : Fin 128) :
    shapeCast S128 x shapeCasts_S1x128_S128 (ix1 k) = x (ix2 0 k) :=
  shapeCast_1a_a_apply x _ k

theorem spreadCol_apply (v : S128.Idx → EReal) (k : Fin 128) (u : Fin 1) :
    broadcastInDim S128x1 ![0] bcast_S128_S128x1_0 v (ix2 k u) = v (ix1 k) :=
  broadcastInDim_apply _ _ v _ (ix1 k) fun a => by
    match a with
    | ⟨0, _⟩ => rfl

theorem spreadRows_apply (v : S128x1.Idx → EReal) (k : Fin 128) (f : Fin 64) :
    broadcastInDim S128x64 ![0, 1] bcast_S128x1_S128x64_0_1 v (ix2 k f) = v (ix2 k 0) :=
  broadcastInDim_apply _ _ v _ (ix2 k 0) fun a => by
    match a with
    | ⟨0, _⟩ => rfl
    | ⟨1, _⟩ => rfl

/-! ## The second host stretch: the halves added, the counts guarded by one, the means -/

/-- The guarded counts as the host computes them from the per-half counts. -/
def csHost (X1 : S2x1x128.Idx → EReal) : S128.Idx → EReal :=
  maximumf (F := Ideal) (φ := .f32)
    (shapeCast S128 (Host.reduceAdd (F := Ideal) (φ := .f32) X1 (constant (F := Ideal) S_ .f32 0x00000000#32) reducesTo_S2x1x128_S1x128_d0 h_S_) shapeCasts_S1x128_S128)
    (broadcastInDim S128 ![] bcast_S_S128 (constant (F := Ideal) S_ .f32 0x3F800000#32))

/-- The means as the host computes them from the per-half sums and counts. -/
def meansHost (X0 : S2x128x64.Idx → EReal) (X1 : S2x1x128.Idx → EReal) : S128x64.Idx → EReal :=
  Host.divf (F := Ideal) (φ := .f32)
    (Host.reduceAdd (F := Ideal) (φ := .f32) X0 (constant (F := Ideal) S_ .f32 0x00000000#32) reducesTo_S2x128x64_S128x64_d0 h_S_)
    (broadcastInDim S128x64 ![0, 1] bcast_S128x1_S128x64_0_1 (broadcastInDim S128x1 ![0] bcast_S128_S128x1_0 (csHost X1)))

theorem zeroWord (i : S_.Idx) : constant (F := Ideal) S_ .f32 0x00000000#32 i = 0 := Ideal.ofBits_zero_f32

theorem csHost_apply (X1 : S2x1x128.Idx → EReal) (k : Fin 128) :
    csHost X1 (ix1 k) = max (∑ cc : Fin 2, X1 (ix3 cc 0 k)) Spec.cOne := by
  unfold csHost
  rw [maximumf_apply, castRow_apply, addHalves_row _ _ zeroWord, broadcastInDim_scalar_apply]
  rfl

theorem meansHost_apply (X0 : S2x128x64.Idx → EReal) (X1 : S2x1x128.Idx → EReal) (k : Fin 128) (f : Fin 64) :
    meansHost X0 X1 (ix2 k f)
      = Ideal.div (∑ cc : Fin 2, X0 (ix3 cc k f)) (max (∑ cc : Fin 2, X1 (ix3 cc 0 k)) Spec.cOne) := by
  unfold meansHost
  rw [hostDivf_apply, addHalves_sums _ _ zeroWord, spreadRows_apply, spreadCol_apply, csHost_apply]

theorem W3_v6 : (W3 m ρ c (Proc.devRef .tc main_v6) : S128.Idx → EReal) = csHost (W2 m ρ c (Proc.devRef .tc main_v1_1)) := by
  show StableHlo.after hostOps1 _ (Proc.devRef .tc main_v6) = _
  after_results
  rfl

theorem W3_v9 : (W3 m ρ c (Proc.devRef .tc main_v9) : S128x64.Idx → EReal)
    = meansHost (W2 m ρ c (Proc.devRef .tc main_v1_0)) (W2 m ρ c (Proc.devRef .tc main_v1_1)) := by
  show StableHlo.after hostOps1 _ (Proc.devRef .tc main_v9) = _
  after_results
  rfl

/-! ## The first pass's outputs, and what the second pass enters with -/

theorem sums2 (cc : Fin 2) (k : Fin 128) (f : Fin 64) :
    (W2 m ρ c (Proc.devRef .tc main_v1_0) : S2x128x64.Idx → EReal) (ix3 cc k f) = Spec.smCore (featM m c) (idsM m c) cc k f := by
  have h := R0.sums_final (V1 m ρ) c cc k f
  rw [feat1, ids1, hF0 m ρ c 2] at h
  exact h

theorem counts2 (cc : Fin 2) (k : Fin 128) :
    (W2 m ρ c (Proc.devRef .tc main_v1_1) : S2x1x128.Idx → EReal) (ix3 cc 0 k) = Spec.cntCore (idsM m c) cc k := by
  have h := R0.counts_final (V1 m ρ) c cc k
  rw [ids1, hF0 m ρ c 3] at h
  exact h

/-- The guarded counts after the second host stretch. -/
theorem cs3 (k : Fin 128) : (W3 m ρ c (Proc.devRef .tc main_v6) : S128.Idx → EReal) (ix1 k) = Spec.kCs (idsM m c) k := by
  rw [W3_v6, csHost_apply]
  exact congrArg (fun s => max s Spec.cOne) (Finset.sum_congr rfl fun cc _ => counts2 m ρ c cc k)

/-- The table of means after the second host stretch. -/
theorem means3 : meansOf (V3 m ρ) c = Spec.kMean (featM m c) (idsM m c) := by
  funext k f
  show (W3 m ρ c (Proc.devRef .tc main_v9) : S128x64.Idx → EReal) (ix2 k f) = _
  rw [W3_v9, meansHost_apply]
  exact congrArg₂ Ideal.div (Finset.sum_congr rfl fun cc _ => sums2 m ρ c cc k f)
    (congrArg (fun s => max s Spec.cOne) (Finset.sum_congr rfl fun cc _ => counts2 m ρ c cc k))

theorem W2_arg0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

theorem W2_v0 : W2 m ρ c (Proc.devRef .tc main_v0) = W1 m ρ c (Proc.devRef .tc main_v0) :=
  (W2_arr m ρ c 1).trans (((dat0 (V1 m ρ) c).arrAt_in 1 rfl _).trans (A_eq0 (V1 m ρ) c 1))

theorem W3_arg0 : W3 m ρ c (Proc.devRef .tc main_arg0) = W2 m ρ c (Proc.devRef .tc main_arg0) := by
  show StableHlo.after hostOps1 _ (Proc.devRef .tc main_arg0) = _
  after_results

theorem W3_v0 : W3 m ρ c (Proc.devRef .tc main_v0) = W2 m ρ c (Proc.devRef .tc main_v0) := by
  show StableHlo.after hostOps1 _ (Proc.devRef .tc main_v0) = _
  after_results

/-- The second pass reads the features and the cluster words the program was launched with. -/
theorem feat3 : featOf (V3 m ρ) c = featM m c := by
  funext n f
  show (W3 m ρ c (Proc.devRef .tc main_arg0) : S1000000x64.Idx → EReal) (ix2 n f) = _
  rw [W3_arg0, W2_arg0, W1_arg0]
  rfl

theorem ids3 : idsOf (V3 m ρ) c = idsM m c := by
  funext n
  show (W3 m ρ c (Proc.devRef .tc main_v0) : S1000000x1.Idx → BitVec 32) (ix2 n 0) = _
  rw [W3_v0, W2_v0]
  exact congrFun (ids1 m ρ c) n

/-! ## The second pass's output, and the third host stretch: the variance loss -/

theorem var4 (cc : Fin 2) (k : Fin 128) :
    (W4 m ρ c (Proc.devRef .tc main_v10) : S2x1x128.Idx → EReal) (ix3 cc 0 k)
      = Spec.varCore (featM m c) (idsM m c) (Spec.kMean (featM m c) (idsM m c)) cc k := by
  have h := R1.var_final (V3 m ρ) c cc k
  rw [feat3, ids3, means3, hF1 m ρ c 3] at h
  exact h

theorem W4_v6 : W4 m ρ c (Proc.devRef .tc main_v6) = W3 m ρ c (Proc.devRef .tc main_v6) :=
  W4_of_ne m ρ c main_v6 (by decide)

theorem W4_v9 : W4 m ρ c (Proc.devRef .tc main_v9) = W3 m ρ c (Proc.devRef .tc main_v9) :=
  (W4_arr m ρ c 2).trans (((dat1 (V3 m ρ) c).arrAt_in 2 rfl _).trans (A_eq1 (V3 m ρ) c 2))

/-- The variance loss as the host computes it from the per-half variance sums and the guarded counts. -/
def vlHost (X : S2x1x128.Idx → EReal) (cs : S128.Idx → EReal) : S_.Idx → EReal :=
  Host.divf (F := Ideal) (φ := .f32)
    (Host.reduceAdd (F := Ideal) (φ := .f32)
      (Host.divf (F := Ideal) (φ := .f32)
        (shapeCast S128 (Host.reduceAdd (F := Ideal) (φ := .f32) X (constant (F := Ideal) S_ .f32 0x00000000#32) reducesTo_S2x1x128_S1x128_d0 h_S_) shapeCasts_S1x128_S128)
        cs)
      (constant (F := Ideal) S_ .f32 0x00000000#32) reducesTo_S128_S_d0 h_S_)
    (constant (F := Ideal) S_ .f32 0x43000000#32)

theorem vlHost_apply (X : S2x1x128.Idx → EReal) (cs : S128.Idx → EReal) (j : S_.Idx) :
    vlHost X cs j = Ideal.div (∑ k : Fin 128, Ideal.div (∑ cc : Fin 2, X (ix3 cc 0 k)) (cs (ix1 k))) Spec.c128 := by
  unfold vlHost
  rw [hostDivf_apply, sumClusters _ _ zeroWord]
  refine congrArg₂ Ideal.div (Finset.sum_congr rfl fun k _ => ?_) rfl
  rw [hostDivf_apply, castRow_apply, addHalves_row _ _ zeroWord]

theorem W5_v15 : (W5 m ρ c (Proc.devRef .tc main_v15) : S_.Idx → EReal)
    = vlHost (W4 m ρ c (Proc.devRef .tc main_v10)) (W4 m ρ c (Proc.devRef .tc main_v6)) := by
  show StableHlo.after hostOps2 _ (Proc.devRef .tc main_v15) = _
  after_results
  rfl

theorem W5_v9 : W5 m ρ c (Proc.devRef .tc main_v9) = W4 m ρ c (Proc.devRef .tc main_v9) := by
  show StableHlo.after hostOps2 _ (Proc.devRef .tc main_v9) = _
  after_results

/-- The variance loss after the third host stretch. -/
theorem vl5 (j : S_.Idx) : (W5 m ρ c (Proc.devRef .tc main_v15) : S_.Idx → EReal) j = Spec.kVL (featM m c) (idsM m c) := by
  rw [W5_v15, vlHost_apply, W4_v6]
  refine congrArg₂ Ideal.div (Finset.sum_congr rfl fun k _ => ?_) rfl
  exact congrArg₂ Ideal.div (Finset.sum_congr rfl fun cc _ => var4 m ρ c cc k) (cs3 m ρ c k)

/-! ## The third pass, and the last host stretch: the distance loss and the total -/

theorem means5 : meansOf (V5 m ρ) c = Spec.kMean (featM m c) (idsM m c) := by
  funext k f
  show (W5 m ρ c (Proc.devRef .tc main_v9) : S128x64.Idx → EReal) (ix2 k f) = _
  rw [W5_v9, W4_v9]
  exact congrFun (congrFun (means3 m ρ c) k) f

theorem rowsum6 (i : Fin 128) :
    (W6 m ρ c (Proc.devRef .tc main_v16) : S128x1.Idx → EReal) (ix2 i 0)
      = Spec.rowsumK (Spec.kMean (featM m c) (idsM m c)) i := by
  have h := R2.rowsum_final (V5 m ρ) c i
  rw [means5, hF2 m ρ c 1] at h
  exact h

theorem W6_v15 : W6 m ρ c (Proc.devRef .tc main_v15) = W5 m ρ c (Proc.devRef .tc main_v15) :=
  W6_of_ne m ρ c main_v15 (by decide)

/-- The total as the host computes it from the variance loss and the pairwise pass's row sums. -/
def totalHost (vl : S_.Idx → EReal) (X : S128x1.Idx → EReal) : S_.Idx → EReal :=
  addf (F := Ideal) (φ := .f32) vl
    (Host.divf (F := Ideal) (φ := .f32)
      (Host.reduceAdd (F := Ideal) (φ := .f32) X (constant (F := Ideal) S_ .f32 0x00000000#32) reducesTo_S128x1_S_d0_1 h_S_)
      (constant (F := Ideal) S_ .f32 0x467E0000#32))

theorem totalHost_apply (vl : S_.Idx → EReal) (X : S128x1.Idx → EReal) (j : S_.Idx) :
    totalHost vl X j = vl j + Ideal.div (∑ i : Fin 128, X (ix2 i 0)) Spec.c16256 := by
  unfold totalHost
  rw [addf_apply, hostDivf_apply, sumRows _ _ zeroWord]
  rfl

theorem W7_v19 : (W7 m ρ c (Proc.devRef .tc main_v19) : S_.Idx → EReal)
    = totalHost (W6 m ρ c (Proc.devRef .tc main_v15)) (W6 m ρ c (Proc.devRef .tc main_v16)) := by
  show StableHlo.after hostOps3 _ (Proc.devRef .tc main_v19) = _
  after_results
  rfl

end Follow

/-- The program's result buffer, after the last host stretch, holds the tiled loss of the launch memory's features and
    cluster words. -/
theorem kernel_value (m : (ℓ : Loc nD τ sig) → Buf (Elt Ideal) ℓ) (ρ : Dev nD → PrngReg) (c : Dev nD) :
    (W7 m ρ c (Proc.devRef .tc main_v19) : S_.Idx → EReal) = fun _ => Spec.kernelResult (featM m c) (idsM m c) := by
  funext j
  rw [W7_v19, totalHost_apply, W6_v15, vl5]
  exact congrArg (fun s => Spec.kVL (featM m c) (idsM m c) + Ideal.div s Spec.c16256)
    (Finset.sum_congr rfl fun i _ => rowsum6 m ρ c i)

end Cert.KernelIdeal.KH

end
-- ==== Proof.AlgebraSums.lean ====
/-
  Sums over the rows, two ways. The rows of the million are exactly the (half, tile, row-in-tile) triples, so a sum over
  halves of sums over tiles and rows is the sum over all rows. When every cluster has a row its count is at least one,
  so guarding it from below by one changes nothing; and a row of cluster k reads, as its one-hot-weighted sum over the
  table of means, exactly row k of the table. Hence the two variance losses agree.
-/
import proofs.«416575_j4896262717860_3_alg».proof.Proof.Spec
import Mathlib.Algebra.BigOperators.Fin
import Mathlib.Data.Fintype.BigOperators

noncomputable section

namespace Cert.Spec

open Idealize.ShloMosaic

variable (feat : Fin 1000000 → Fin 64 → EReal) (ids : Fin 1000000 → BitVec 32)

/-- The rows of the million, as triples: half = n / 500000, tile = (n / 10000) mod 50, row in tile = n mod 10000. -/
def Sums.rowEquiv : Fin 2 × Fin 50 × Fin 10000 ≃ Fin 1000000 where
  toFun p := row p.1 p.2.1 p.2.2
  invFun n :=
    (⟨n.val / 500000, by have := n.isLt; omega⟩, ⟨n.val / 10000 % 50, by omega⟩, ⟨n.val % 10000, by omega⟩)
  left_inv := by
    rintro ⟨cc, i, r⟩
    have hc := cc.isLt
    have hi := i.isLt
    have hr := r.isLt
    refine Prod.ext (Fin.ext ?_) (Prod.ext (Fin.ext ?_) (Fin.ext ?_))
    · show ((cc.val * 50 + i.val) * 10000 + r.val) / 500000 = cc.val
      omega
    · show ((cc.val * 50 + i.val) * 10000 + r.val) / 10000 % 50 = i.val
      omega
    · show ((cc.val * 50 + i.val) * 10000 + r.val) % 10000 = r.val
      omega
  right_inv := by
    intro n
    have hn := n.isLt
    refine Fin.ext ?_
    show (n.val / 500000 * 50 + n.val / 10000 % 50) * 10000 + n.val % 10000 = n.val
    omega

/-- The triples (half, tile, row in tile) enumerate the rows: a sum over them is the sum over all rows. -/
theorem sum_rows (G : Fin 1000000 → EReal) :
    ∑ cc : Fin 2, ∑ i : Fin 50, ∑ r : Fin 10000, G (row cc i r) = ∑ n : Fin 1000000, G n := by
  have h1 : ∑ cc : Fin 2, ∑ i : Fin 50, ∑ r : Fin 10000, G (row cc i r)
      = ∑ p : Fin 2 × Fin 50 × Fin 10000, G (Sums.rowEquiv p) := by
    rw [Fintype.sum_prod_type]
    refine Finset.sum_congr rfl (fun cc _ => ?_)
    rw [Fintype.sum_prod_type]
    rfl
  rw [h1]
  exact Equiv.sum_comp Sums.rowEquiv G

/-- The word 0x3F800000 denotes one: sign bit clear, exponent field 127 (the bias), fraction field 0,
    so its value is 2^23 · 2^(127 − 127 − 23) = 1. -/
theorem cOne_eq : cOne = 1 := by
  show Ideal.ieee 8 23 (0x3F800000#32) = 1
  unfold Ideal.ieee
  have hneg : ((0x3F800000#32).extractLsb' (8 + 23) 1 == 1#1) = false := by decide
  have hex : ((0x3F800000#32).extractLsb' 23 8).toNat = 127 := by decide
  have hfr : ((0x3F800000#32).extractLsb' 0 23).toNat = 0 := by decide
  simp only [hneg, hex, hfr]
  rw [if_neg (by norm_num), if_neg (by norm_num)]
  have hval : ((if false = true then (-1 : ℝ) else 1) * ((2 ^ 23 + 0 : ℕ) : ℝ)
      * (2 : ℝ) ^ (((127 : ℕ) : ℤ) - (2 ^ (8 - 1) - 1) - ((23 : ℕ) : ℤ))) = 1 := by
    norm_num
  rw [hval]
  rfl

theorem kCnt_eq (k : Fin 128) : kCnt ids k = cnt ids k := by
  unfold kCnt cntCore cnt
  exact sum_rows (fun n => if ids n = wd k then (1 : EReal) else 0)

theorem kSm_eq (k : Fin 128) (f : Fin 64) : kSm feat ids k f = sm feat ids k f := by
  unfold kSm smCore sm
  exact sum_rows (fun n => if ids n = wd k then feat n f else 0)

/-- A cluster that has a row has count at least one. -/
theorem one_le_cnt (hne : ∀ k : Fin 128, ∃ n, ids n = wd k) (k : Fin 128) : (1 : EReal) ≤ cnt ids k := by
  obtain ⟨n, hn⟩ := hne k
  have hnonneg : ∀ m ∈ (Finset.univ : Finset (Fin 1000000)), (0 : EReal) ≤ (if ids m = wd k then (1 : EReal) else 0) := by
    intro m _
    by_cases hm : ids m = wd k
    · rw [if_pos hm]; exact zero_le_one
    · rw [if_neg hm]
  have hle := Finset.single_le_sum hnonneg (Finset.mem_univ n)
  rw [if_pos hn] at hle
  exact hle

theorem kCs_eq (hne : ∀ k : Fin 128, ∃ n, ids n = wd k) (k : Fin 128) : kCs ids k = cnt ids k := by
  unfold kCs
  rw [kCnt_eq, cOne_eq]
  exact max_eq_left (one_le_cnt ids hne k)

theorem kMean_eq (hne : ∀ k : Fin 128, ∃ n, ids n = wd k) : kMean feat ids = rMean feat ids := by
  funext k f
  unfold kMean rMean
  rw [kSm_eq, kCs_eq ids hne]

/-- Two cluster numbers with the same word are the same number: both are below 2^32. -/
theorem Sums.wd_inj {a b : Fin 128} (h : wd a = wd b) : a = b := by
  have h' := congrArg BitVec.toNat h
  simp only [wd, BitVec.toNat_ofNat] at h'
  have ha := a.isLt
  have hb := b.isLt
  exact Fin.ext (by omega)

/-- A row of cluster `k` reads row `k` of the table as its one-hot-weighted sum. -/
theorem gathK_eq (mu : Fin 128 → Fin 64 → EReal) (n : Fin 1000000) (k : Fin 128) (h : ids n = wd k) (f : Fin 64) :
    gathK ids mu n f = mu k f := by
  unfold gathK
  rw [Finset.sum_eq_single k]
  · rw [if_pos h, one_mul]
  · intro k' _ hk'
    have hne : ¬ ids n = wd k' := fun h' => hk' (Sums.wd_inj (h'.symm.trans h))
    rw [if_neg hne, zero_mul]
  · intro hk
    exact absurd (Finset.mem_univ k) hk

theorem kVar_eq (hne : ∀ k : Fin 128, ∃ n, ids n = wd k) (g : Fin 1000000 → Fin 128)
    (hg : ∀ n k, ids n = wd k → g n = k) (k : Fin 128) : kVar feat ids k = rVar feat ids g k := by
  unfold kVar varCore rVar
  rw [sum_rows (fun n => if ids n = wd k then ppOf feat (gathK ids (kMean feat ids) n) n else 0)]
  refine Finset.sum_congr rfl (fun n _ => ?_)
  by_cases hn : ids n = wd k
  · rw [if_pos hn, if_pos hn]
    have hgath : gathK ids (kMean feat ids) n = fun f => rMean feat ids (g n) f := by
      funext f
      rw [gathK_eq ids (kMean feat ids) n k hn f, kMean_eq feat ids hne, hg n k hn]
    rw [hgath]
  · rw [if_neg hn, if_neg hn]

/-- The two variance losses agree. -/
theorem kVL_eq (hne : ∀ k : Fin 128, ∃ n, ids n = wd k) (g : Fin 1000000 → Fin 128)
    (hg : ∀ n k, ids n = wd k → g n = k) : kVL feat ids = rVL feat ids g := by
  unfold kVL rVL
  have hpc : ∀ k : Fin 128, kPC feat ids k = rPC feat ids g k := by
    intro k
    unfold kPC rPC
    rw [kVar_eq feat ids hne g hg k, kCs_eq ids hne k]
  rw [Finset.sum_congr rfl (fun k _ => hpc k)]

end Cert.Spec

end
-- ==== Proof.LibScatterGather.lean ====
/-
  The host's gather and accumulating scatter, read at one index, for the shapes this program uses: a table of `n` rows
  (scalars, or rows of `h` numbers) addressed through an [m × 1] column of 32-bit start indices.

  A SCATTER reads the start index signed and does not clamp it: update `e` is added to row `landing n (idx e)`, which is
  nowhere when the index is negative or at least `n` (the update is dropped). So the result at row `k` is the operand
  there plus the sum of the updates whose index lands on `k`; for rows of `h` numbers, feature by feature.
  A GATHER reads the start index signed and clamps it into the table: result row `e` is the table's row
  `rowOf n (idx e)`.
  Two facts tie them together: an index that lands on `k` is the word of `k` (so comparing an index with the word of a
  row number decides landing), and an index that lands on `k` is not negative, so the wrap-around of negative indices
  (`index + n` when negative) leaves it alone and the clamped read of it is row `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

/-- Where a start index (a 32-bit word read signed) lands among `n` rows: nowhere when negative or at least `n`. -/
def landing (n : Nat) (w : BitVec 32) : Option (Fin n) :=
  if h : 0 ≤ w.toInt ∧ w.toInt < n then some ⟨w.toInt.toNat, by omega⟩ else none

/-- The row a gather reads for a start index: the index read signed and clamped into the table. -/
def rowOf (n : Nat) (hn : 0 < n) (w : BitVec 32) : Fin n := ⟨min w.toInt.toNat (n - 1), by omega⟩

/-! ## The accumulating scatter of scalars: where update `j` lands -/

section ScatterScalar

variable {n m : Nat} (d : ScatterDims ⟨1, ![n]⟩ ⟨2, ![m, 1]⟩ ⟨1, ![m]⟩)

/-- Update `j` reads its start index at row `j 0` of the index column: the one update axis is the scatter axis, and the
    index vector has the single component 0. -/
theorem siIdx_scalar (hsd : d.scatterDimsToOperandDims = [0]) (hiv : d.indexVectorDim = 1)
    (j : (⟨1, ![m]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show c.val = 0
    have := c.isLt
    omega

/-- The window of update `j` starts at its index, read signed. -/
theorem start_scalar (hsd : d.scatterDimsToOperandDims = [0]) (hiv : d.indexVectorDim = 1)
    (idx : IVec ⟨2, ![m, 1]⟩ 32) (j : (⟨1, ![m]⟩ : Shape).Idx) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha, siIdx_scalar d hsd hiv]
  rfl

/-- The operand's one axis is inserted: an update has no window coordinate on it. -/
theorem window_scalar (hiw : d.insertedWindowDims = [0]) (j : (⟨1, ![m]⟩ : Shape).Idx) (a : Fin 1) : d.window j a = 0 := by
  have ha : a ∉ d.sKept := by
    rw [Subsingleton.elim a 0]
    simp [ScatterDims.sKept, Shape.kept, hiw]
  unfold ScatterDims.window
  rw [dif_neg ha]

/-- Update `j` lands on the row its index lands on. -/
theorem resultIdx_scalar (hiw : d.insertedWindowDims = [0]) (hsd : d.scatterDimsToOperandDims = [0]) (hiv : d.indexVectorDim = 1)
    (idx : IVec ⟨2, ![m, 1]⟩ 32) (j : (⟨1, ![m]⟩ : Shape).Idx) :
    d.resultIdx? j idx = (landing n (idx (ix2 (j 0) 0))).map ix1 := by
  have hsw : ∀ a : Fin 1, d.start j idx a + (d.window j a : Int) = (idx (ix2 (j 0) 0)).toInt := fun a => by
    rw [start_scalar d hsd hiv, window_scalar d hiw]; simp
  unfold ScatterDims.resultIdx? landing
  by_cases hw : 0 ≤ (idx (ix2 (j 0) 0)).toInt ∧ (idx (ix2 (j 0) 0)).toInt < n
  · rw [dif_pos (fun a => by rw [hsw a, Subsingleton.elim a 0]; exact hw), dif_pos hw]
    simp only [Option.map_some]
    congr 1
    funext a
    have ha : a = 0 := Subsingleton.elim _ _
    subst ha
    apply Fin.ext
    show (d.start j idx 0 + (d.window j 0 : Int)).toNat = (idx (ix2 (j 0) 0)).toInt.toNat
    rw [hsw 0]
  · rw [dif_neg (fun hall => hw (by have h0 := hall 0; rw [hsw 0] at h0; exact h0)), dif_neg hw]
    rfl

end ScatterScalar

/-! ## The accumulating scatter of rows: where update `j` lands -/

section ScatterRows

variable {n m h : Nat} (d : ScatterDims ⟨2, ![n, h]⟩ ⟨2, ![m, 1]⟩ ⟨2, ![m, h]⟩)

/-- Of the update's two axes, axis 1 is the window axis, so axis 0 is the only scatter axis. -/
theorem uScatter_rows (huw : d.updateWindowDims = [1]) (X : Fin 2) (hX : X ∈ d.uScatter) : X = 0 := by
  have hne : X ≠ 1 := by simpa [ScatterDims.uScatter, Shape.kept, huw] using hX
  have hlt : X.val < 2 := X.isLt
  have hv : X.val ≠ 1 := fun hv => hne (Fin.ext hv)
  apply Fin.ext
  show X.val = 0
  omega

/-- Update `j` reads its start index at row `j 0` of the index column. -/
theorem siIdx_rows (huw : d.updateWindowDims = [1]) (hsd : d.scatterDimsToOperandDims = [0]) (hiv : d.indexVectorDim = 1)
    (j : (⟨2, ![m, h]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 2, X ∈ d.uScatter → (j X).val = (j 0).val := fun X hX => by rw [uScatter_rows d huw X hX]
    exact e _ (List.getElem_mem _)
  | ⟨1, _⟩ =>
    unfold ScatterDims.siIdx
    rw [dif_pos (by rw [hiv])]
    apply Fin.ext
    show c.val = 0
    have := c.isLt
    omega

/-- On the table's row axis the window of update `j` starts at its index, read signed. -/
theorem start_rows0 (huw : d.updateWindowDims = [1]) (hsd : d.scatterDimsToOperandDims = [0]) (hiv : d.indexVectorDim = 1)
    (idx : IVec ⟨2, ![m, 1]⟩ 32) (j : (⟨2, ![m, h]⟩ : Shape).Idx) :
    d.start j idx 0 = (idx (ix2 (j 0) 0)).toInt := by
  have ha : (0 : Fin 2) ∈ d.scatterDimsToOperandDims := by rw [hsd]; exact List.mem_singleton.mpr rfl
  unfold ScatterDims.start
  rw [dif_pos ha, siIdx_rows d huw hsd hiv]
  rfl

/-- The feature axis is not start-indexed: the window starts at 0 there. -/
theorem start_rows1 (hsd : d.scatterDimsToOperandDims = [0]) (idx : IVec ⟨2, ![m, 1]⟩ 32) (j : (⟨2, ![m, h]⟩ : Shape).Idx) :
    d.start j idx 1 = 0 := by
  have ha : (1 : Fin 2) ∉ d.scatterDimsToOperandDims := by rw [hsd]; simp
  unfold ScatterDims.start
  rw [dif_neg ha]

/-- The row axis is inserted: no window coordinate on it. -/
theorem window_rows0 (hiw : d.insertedWindowDims = [0]) (j : (⟨2, ![m, h]⟩ : Shape).Idx) : d.window j 0 = 0 := by
  have ha : (0 : Fin 2) ∉ d.sKept := by simp [ScatterDims.sKept, Shape.kept, hiw]
  unfold ScatterDims.window
  rw [dif_neg ha]

/-- The feature axis takes the update's window coordinate, its coordinate on axis 1. -/
theorem window_rows1 (huw : d.updateWindowDims = [1]) (hiw : d.insertedWindowDims = [0]) (j : (⟨2, ![m, h]⟩ : Shape).Idx) :
    d.window j 1 = (j 1).val := by
  have ha : (1 : Fin 2) ∈ d.sKept := by simp [ScatterDims.sKept, Shape.kept, hiw]
  unfold ScatterDims.window
  rw [dif_pos ha]
  have e : ∀ X : Fin 2, X ∈ d.updateWindowDims → (j X).val = (j 1).val := fun X hX => by
    rw [huw] at hX; rw [List.mem_singleton.1 hX]
  exact e _ (List.getElem_mem _)

/-- Update `j` lands on the row its index lands on, at its own feature. -/
theorem resultIdx_rows (huw : d.updateWindowDims = [1]) (hiw : d.insertedWindowDims = [0]) (hsd : d.scatterDimsToOperandDims = [0])
    (hiv : d.indexVectorDim = 1) (idx : IVec ⟨2, ![m, 1]⟩ 32) (j : (⟨2, ![m, h]⟩ : Shape).Idx) :
    d.resultIdx? j idx
      = (landing n (idx (ix2 (j 0) 0))).map (fun r => (ix2 r (j 1) : (⟨2, ![n, h]⟩ : Shape).Idx)) := by
  have h0 : d.start j idx 0 + (d.window j 0 : Int) = (idx (ix2 (j 0) 0)).toInt := by
    rw [start_rows0 d huw hsd hiv, window_rows0 d hiw]; simp
  have h1 : d.start j idx 1 + (d.window j 1 : Int) = ((j 1).val : Int) := by
    rw [start_rows1 d hsd, window_rows1 d huw hiw]; simp
  have hj1 : ((j 1).val : Int) < (h : Int) := by exact_mod_cast (j 1).isLt
  unfold ScatterDims.resultIdx? landing
  by_cases hw : 0 ≤ (idx (ix2 (j 0) 0)).toInt ∧ (idx (ix2 (j 0) 0)).toInt < n
  · have hall : ∀ a : Fin 2, 0 ≤ d.start j idx a + (d.window j a : Int) ∧
        d.start j idx a + (d.window j a : Int) < ((⟨2, ![n, h]⟩ : Shape).size a : Int) :=
      Fin.forall_fin_two.2 ⟨by rw [h0]; exact hw, by rw [h1]; exact ⟨by omega, hj1⟩⟩
    rw [dif_pos hall, dif_pos hw]
    simp only [Option.map_some]
    congr 1
    funext a
    revert a
    refine Fin.forall_fin_two.2 ⟨?_, ?_⟩
    · apply Fin.ext
      show (d.start j idx 0 + (d.window j 0 : Int)).toNat = (idx (ix2 (j 0) 0)).toInt.toNat
      rw [h0]
    · apply Fin.ext
      show (d.start j idx 1 + (d.window j 1 : Int)).toNat = (j 1).val
      rw [h1]; simp
  · rw [dif_neg (fun hall => hw (by have a0 := hall 0; rw [h0] at a0; exact a0)), dif_neg hw]
    rfl

end ScatterRows

/-- Two rank-2 indices that are equal have equal coordinates. -/
theorem ix2_inj {n0 n1 : Nat} {a a' : Fin n0} {b b' : Fin n1} (h : ix2 a b = ix2 a' b') : a = a' ∧ b = b' :=
  ⟨congrFun h 0, congrFun h 1⟩

/-- Two rank-1 indices with the same coordinate are the same index. -/
theorem ix1_inj {n : Nat} {a b : Fin n} (h : ix1 a = ix1 b) : a = b := congrFun h 0

/-- The accumulating scatter of scalars at row `k`. -/
theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    rw [resultIdx_scalar d hiw hsd hiv, Option.map_eq_some_iff]
    constructor
    · rintro ⟨a, ha, hak⟩; rw [ha, ix1_inj hak]
    · intro hl; exact ⟨k, hl, rfl⟩
  show x (ix1 k) + ∑ j ∈ Finset.univ.filter (fun j => d.resultIdx? j idx = some (ix1 k)), upd j = _
  congr 1
  -- an update index is its one coordinate: the updates that land on row k are those whose index lands there
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

/-- The accumulating scatter of rows at row `k`, feature `j`. -/
theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hmem : ∀ q : (⟨2, ![m, h]⟩ : Shape).Idx,
      d.resultIdx? q idx = some (ix2 k j) ↔ landing n (idx (ix2 (q 0) 0)) = some k ∧ q 1 = j := fun q => by
    rw [resultIdx_rows d huw hiw hsd hiv]
    cases hl : landing n (idx (ix2 (q 0) 0)) with
    | none => simp
    | some r =>
      simp only [Option.map_some, Option.some.injEq]
      constructor
      · intro hak; exact ix2_inj hak
      · rintro ⟨hr, hq⟩; rw [hr, hq]
  show x (ix2 k j) + ∑ q ∈ Finset.univ.filter (fun q => d.resultIdx? q idx = some (ix2 k j)), upd q = _
  congr 1
  -- an update index is (its row, its feature): the updates that land on (k, j) are feature j of the rows whose index lands on k
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · have hq1 := ((hmem q).1 (Finset.mem_filter.1 hq).2).2
    show ix2 (q 0) j = q
    rw [← hq1]; exact (eq_ix2 q).symm
  · have hq1 := ((hmem q).1 (Finset.mem_filter.1 hq).2).2
    show upd q = upd (ix2 (q 0) j)
    rw [← hq1]; exact congrArg upd (eq_ix2 q)

/-! ## The gather of rows: which table entry result index `q` reads -/

section GatherRows

variable {N n h : Nat} (d : GatherDims ⟨2, ![N, h]⟩ ⟨2, ![n, 1]⟩ ⟨2, ![n, h]⟩)

/-- Of the result's two axes, axis 1 is the offset axis, so axis 0 is the only batch axis. -/
theorem batchDims_rows (hoff : d.offsetDims = [1]) (X : Fin 2) (hX : X ∈ d.batchDims) : X = 0 := by
  have hne : X ≠ 1 := by simpa [GatherDims.batchDims, Shape.kept, hoff] using hX
  have hlt : X.val < 2 := X.isLt
  have hv : X.val ≠ 1 := fun hv => hne (Fin.ext hv)
  apply Fin.ext
  show X.val = 0
  omega

/-- Result index `q` reads its start index at row `q 0` of the index column. -/
theorem gatherSiIdx_rows (hoff : d.offsetDims = [1]) (hsim : d.startIndexMap = [0]) (hivd : d.indexVectorDim = 1)
    (q : (⟨2, ![n, h]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 0).val := fun X hX => by rw [batchDims_rows d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own feature): the row axis is
    collapsed and start-indexed with a slice of one row, the feature axis is the offset axis and starts at 0. -/
theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hsim hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

/-- The gather of scalars at result row `e`. -/
theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  -- the take-shaped gather read at one position, its rank-1 index and its index-column row written by coordinates
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

/-- The gather of rows at result row `e`, feature `j`. -/
theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

/-- An index lands on row `k` exactly when it is the word of `k`. -/
theorem landing_eq_some_iff {n : Nat} (hn : n ≤ 2 ^ 31) (w : BitVec 32) (k : Fin n) :
    landing n w = some k ↔ w = BitVec.ofNat 32 k.val := by
  have hk := k.isLt
  have hwlt := w.isLt
  unfold landing
  constructor
  · intro h
    split at h
    · rename_i hw
      -- the landing row's number is the index read signed; a word below 2^31 reads the same signed and unsigned
      have hv : w.toInt.toNat = k.val := congrArg Fin.val (Option.some.inj h)
      have hc := BitVec.toInt_eq_toNat_cond w
      apply BitVec.eq_of_toNat_eq
      rw [BitVec.toNat_ofNat, Nat.mod_eq_of_lt (by omega)]
      split at hc <;> omega
    · exact absurd h (by simp)
  · intro h
    subst h
    have htn : (BitVec.ofNat 32 k.val).toNat = k.val := by
      rw [BitVec.toNat_ofNat]; exact Nat.mod_eq_of_lt (by omega)
    have hti : (BitVec.ofNat 32 k.val).toInt = (k.val : Int) := by
      rw [BitVec.toInt_eq_toNat_cond, htn, if_pos (by omega)]
    rw [dif_pos ⟨by omega, by omega⟩]
    congr 1
    apply Fin.ext
    show (BitVec.ofNat 32 k.val).toInt.toNat = k.val
    omega

/-- An index that lands on row `k` is not negative: wrapping negative indices around leaves it alone, and the clamped
    read of it is row `k`. -/
theorem rowOf_wrap_of_landing {n : Nat} (hn : 0 < n) (hn' : n < 2 ^ 31) (w : BitVec 32) (k : Fin n) (h : landing n w = some k) :
    rowOf n hn (Scalar.select (Scalar.cmpi .slt w 0#32) (w + BitVec.ofNat 32 n) w) = k := by
  unfold landing at h
  split at h
  · rename_i hw
    have hk : w.toInt.toNat = k.val := congrArg Fin.val (Option.some.inj h)
    -- a landing index is not below zero, so the signed comparison with zero fails and the select keeps the index
    have hs : w.slt 0#32 = false := by
      simp only [BitVec.slt, BitVec.toInt_zero, decide_eq_false_iff_not, not_lt]
      exact hw.1
    have hc : Scalar.cmpi .slt w 0#32 = 0#1 := by
      show BitVec.ofBool (w.slt 0#32) = 0#1
      rw [hs]; rfl
    rw [hc, select_zero]
    apply Fin.ext
    show min w.toInt.toNat (n - 1) = k.val
    omega
  · exact absurd h (by simp)

end Cert.Decode

end
-- ==== Proof.RefValue.lean ====
/-
  The plain program as a value: three accumulating scatters (counts, feature sums, hinged squared distances) addressed by
  the cluster words, a gather of each row's cluster mean, and the pairwise term over all pairs of means.
-/
import proofs.«416575_j4896262717860_3_alg».proof.Proof.Gen.ReferenceIdeal.Run
import proofs.«416575_j4896262717860_3_alg».proof.Proof.Gen.ReferenceIdeal.Read
import proofs.«416575_j4896262717860_3_alg».proof.Proof.Spec
import proofs.«416575_j4896262717860_3_alg».proof.Proof.AlgebraSums
import proofs.«416575_j4896262717860_3_alg».proof.Proof.LibScatterGather
import Idealize.ShloMosaic.Lib.ValueIdx
import Idealize.ShloMosaic.Lib.ValueIdxRank1
import Idealize.ShloMosaic.Lib.Pipeline.Value
import Idealize.ShloMosaic.PureOps.Ideal.Laws

noncomputable section

namespace Cert.ReferenceIdeal.RV

open Cert.ReferenceIdeal Cert.ReferenceIdeal.Gen Idealize.ShloMosaic Idealize.ShloMosaic.ValueIdx Idealize.ShloMosaic.TcCoe Idealize.SL.Sem

/-- Feature `f` of row `n` in the memory the program is launched from. -/
def featM (m : (ℓ : Loc nD τ sig) → Buf (Elt Ideal) ℓ) (c : Dev nD) : Fin 1000000 → Fin 64 → EReal :=
  fun n f => (m ((c.tc : Thread nD τ).loc main_arg0) : S1000000x64.Idx → EReal) (ix2 n f)
/-- Row `n`'s cluster word: column 1 of the label pairs. -/
def idsM (m : (ℓ : Loc nD τ sig) → Buf (Elt Ideal) ℓ) (c : Dev nD) : Fin 1000000 → BitVec 32 :=
  fun n => (m ((c.tc : Thread nD τ).loc main_arg1) : S1000000x2.Idx → BitVec 32) (ix2 n 1)

/-- The table row the gather reads for row `n`: the word, wrapped by 128 when negative, read signed and clamped. -/
def gOf (ids : Fin 1000000 → BitVec 32) (n : Fin 1000000) : Fin 128 :=
  Cert.Decode.rowOf 128 (by decide)
    (Scalar.select (Scalar.cmpi .slt (ids n) 0#32) (ids n + BitVec.ofNat 32 128) (ids n))

/-- A row whose word is cluster `k`'s reads row `k` of the table. -/
theorem gOf_of_wd (ids : Fin 1000000 → BitVec 32) (n : Fin 1000000) (k : Fin 128) (h : ids n = Spec.wd k) :
    gOf ids n = k := by
  unfold gOf
  exact Cert.Decode.rowOf_wrap_of_landing (by decide) (by decide) (ids n) k
    ((Cert.Decode.landing_eq_some_iff (by decide) (ids n) k).2 h)

/-! ## The program's stages read at coordinates

  Throughout, `x0` is the feature array and `x1` the label pairs; `ft x0` and `wdOf x1` are their coordinates. -/

section Stages

open Cert.ReferenceIdeal.Read Cert.Decode

variable (x0 : S1000000x64.Idx → EReal) (x1 : S1000000x2.Idx → BitVec 32)

/-- The features by coordinates. -/
def ft : Fin 1000000 → Fin 64 → EReal := fun n f => x0 (ix2 n f)
/-- The cluster words by coordinates. -/
def wdOf : Fin 1000000 → BitVec 32 := fun n => x1 (ix2 n 1)

/-- The flattened column of cluster words at row `n`. -/
theorem v1_at (n : Fin 1000000) : val_main_v1 (F := Ideal) x1 (ix1 n) = wdOf x1 n := by
  rw [val_main_v1_apply, val_main_v0_apply]
  unfold wdOf
  refine congrArg x1 (funext fun a => ?_)
  match a with
  | ⟨0, _⟩ => exact Fin.ext (Nat.div_one _)
  | ⟨1, _⟩ => rfl

/-- The index column the count scatter reads, at row `n`. -/
theorem v4_at (n : Fin 1000000) : val_main_v4 (F := Ideal) x1 (ix2 n 0) = wdOf x1 n := by
  rw [val_main_v4_apply, ← v1_at]
  refine congrArg _ (funext fun a => ?_)
  match a with
  | ⟨0, _⟩ => rfl

/-- The index column the feature-sum scatter reads, at row `n`. -/
theorem v7_at (n : Fin 1000000) : val_main_v7 (F := Ideal) x1 (ix2 n 0) = wdOf x1 n := by
  rw [val_main_v7_apply, ← v1_at]
  refine congrArg _ (funext fun a => ?_)
  match a with
  | ⟨0, _⟩ => rfl

/-- The index column the variance scatter reads, at row `n`. -/
theorem v26_at (n : Fin 1000000) : val_main_v26 (F := Ideal) x1 (ix2 n 0) = wdOf x1 n := by
  rw [val_main_v26_apply, ← v1_at]
  refine congrArg _ (funext fun a => ?_)
  match a with
  | ⟨0, _⟩ => rfl

/-- A sum over the rows whose index lands on `k` is the sum over all rows of the terms of the rows whose word is `k`'s. -/
theorem sum_landing (idx : Fin 1000000 → BitVec 32) (k : Fin 128) (u : Fin 1000000 → EReal) :
    ∑ e ∈ Finset.univ.filter (fun e : Fin 1000000 => landing 128 (idx e) = some k), u e
      = ∑ n : Fin 1000000, if idx n = Spec.wd k then u n else 0 := by
  rw [Finset.sum_filter]
  refine Finset.sum_congr rfl fun n _ => ?_
  by_cases h : idx n = Spec.wd k
  · rw [if_pos h, if_pos ((landing_eq_some_iff (by decide) _ _).2 h)]
  · rw [if_neg h, if_neg (fun hl => h ((landing_eq_some_iff (by decide) _ _).1 hl))]

/-- The counts: cluster `k`'s entry is the number of rows whose word is `k`'s. -/
theorem cnt_at (k : Fin 128) : val_main_v5 (F := Ideal) x1 (ix1 k) = Spec.cnt (wdOf x1) k := by
  unfold val_main_v5
  rw [scatterAdd_scalar scatter_S128_S1000000x1_S1000000_n_0_0_1 rfl rfl rfl rfl]
  rw [val_main_v3_apply, val_main_cst_0_apply, Ideal.ofBits_def, Ideal.ofBits_zero_f32, zero_add]
  have hupd : ∀ e : Fin 1000000, val_main_v2 (F := Ideal) (ix1 e) = (1 : EReal) := fun e => by
    rw [val_main_v2_apply, val_main_cst_apply, Ideal.ofBits_def]; exact Spec.cOne_eq
  simp only [v4_at, hupd]
  exact sum_landing (wdOf x1) k (fun _ => 1)

/-- The feature sums: entry `(k, f)` is the sum of feature `f` over the rows whose word is `k`'s. -/
theorem sm_at (k : Fin 128) (f : Fin 64) : val_main_v8 (F := Ideal) x0 x1 (ix2 k f) = Spec.sm (ft x0) (wdOf x1) k f := by
  unfold val_main_v8
  rw [scatterAdd_rows scatter_S128x64_S1000000x1_S1000000x64_1_0_0_1 rfl rfl rfl rfl]
  rw [val_main_v6_apply, val_main_cst_1_apply, Ideal.ofBits_def, Ideal.ofBits_zero_f32, zero_add]
  simp only [v7_at]
  exact sum_landing (wdOf x1) k (fun n => x0 (ix2 n f))

/-- The means: the feature sum over the bare count. -/
theorem mean_at (k : Fin 128) (f : Fin 64) :
    val_main_v11 (F := Ideal) x0 x1 (ix2 k f) = Spec.rMean (ft x0) (wdOf x1) k f := by
  have hi : idx_main_v9 (idx_main_v10 (ix2 k f)) = ix1 k := funext fun a => by
    match a with
    | ⟨0, _⟩ => rfl
  rw [val_main_v11_apply, val_main_v10_apply, val_main_v9_apply, hi, sm_at, cnt_at, Ideal.hostDivf_def]
  rfl

/-- The gather's start index at row `n`: the word, wrapped by 128 when negative. -/
theorem v17_at (n : Fin 1000000) :
    val_main_v17 (F := Ideal) x1 (ix2 n 0)
      = Scalar.select (Scalar.cmpi .slt (wdOf x1 n) 0#32) (wdOf x1 n + BitVec.ofNat 32 128) (wdOf x1 n) := by
  have hi : idx_main_v17 (ix2 n 0) = ix1 n := funext fun a => by
    match a with
    | ⟨0, _⟩ => rfl
  rw [val_main_v17_apply, hi, val_main_v16_apply, val_main_v13_apply, val_main_v15_apply, v1_at,
    val_main_v12_apply, val_main_c_apply, val_main_v14_apply, val_main_c_2_apply]
  rfl

/-- The gathered mean of row `n`: the mean of the table row its start index reads. -/
theorem gath_at (n : Fin 1000000) (f : Fin 64) :
    val_main_v18 (F := Ideal) x0 x1 (ix2 n f) = Spec.rMean (ft x0) (wdOf x1) (gOf (wdOf x1) n) f := by
  unfold val_main_v18
  rw [gather_rows gather_S128x64_S1000000x1_S1000000x64_1_0_n_n_0_1_164 rfl rfl rfl rfl rfl rfl rfl _ _ n f (by decide),
    v17_at, mean_at]
  rfl

/-- Row `n`'s hinged squared distance to its gathered mean. -/
theorem pp_at (n : Fin 1000000) :
    val_main_v24 (F := Ideal) x0 x1 (ix1 n)
      = Spec.ppOf (ft x0) (fun f => Spec.rMean (ft x0) (wdOf x1) (gOf (wdOf x1) n) f) n := by
  have hi : ∀ k : Fin 64, idx_main_call0_v1 (ix1 n) k = ix2 n k := fun k => funext fun a => by
    match a with
    | ⟨0, _⟩ => rfl
    | ⟨1, _⟩ => rfl
  rw [val_main_v24_apply, val_main_v23_apply, val_main_v22_apply, val_main_v20_apply, val_main_call0_v1_apply,
    val_main_call0_cst_apply, val_main_v21_apply, val_main_cst_3_apply, val_main_call1_v0_apply, val_main_call1_cst_apply]
  simp only [hi, val_main_call0_v0_apply, val_main_v19_apply, gath_at, Ideal.ofBits_def, Ideal.ofBits_zero_f32, zero_add,
    Ideal.mulf_def, Ideal.subf_def, Ideal.maximumf_def, Ideal.hostUnary_sqrt_def]
  rfl

/-- The variance scatter: cluster `k`'s entry is the sum of the hinged squared distances of its rows. -/
theorem var_at (k : Fin 128) :
    val_main_v27 (F := Ideal) x0 x1 (ix1 k) = Spec.rVar (ft x0) (wdOf x1) (gOf (wdOf x1)) k := by
  unfold val_main_v27
  rw [scatterAdd_scalar scatter_S128_S1000000x1_S1000000_n_0_0_1 rfl rfl rfl rfl]
  rw [val_main_v25_apply, val_main_cst_4_apply, Ideal.ofBits_def, Ideal.ofBits_zero_f32, zero_add]
  simp only [v26_at, pp_at]
  exact sum_landing (wdOf x1) k _

/-- The variance loss: the per-cluster averages, summed and divided by 128. -/
theorem vl_at (i : S_.Idx) :
    val_main_v30 (F := Ideal) x0 x1 i = Spec.rVL (ft x0) (wdOf x1) (gOf (wdOf x1)) := by
  rw [val_main_v30_apply, val_main_v29_apply, val_main_cst_5_apply, val_main_cst_6_apply, Ideal.ofBits_def,
    Ideal.ofBits_def, Ideal.ofBits_zero_f32, zero_add, Ideal.hostDivf_def]
  unfold Spec.rVL
  refine congrArg (fun t => Ideal.div t Spec.c128) ?_
  rw [← Equiv.sum_comp (idxEquiv1 (n := 128)).symm]
  refine Finset.sum_congr rfl fun k _ => ?_
  show val_main_v28 (F := Ideal) x0 x1 (ix1 k) = _
  rw [val_main_v28_apply, var_at, cnt_at, Ideal.hostDivf_def]
  rfl

/-- The squared distance of means `i` and `j` as the sum of squared differences. -/
theorem sq_at (i j : Fin 128) :
    val_main_v37 (F := Ideal) x0 x1 (ix2 i j) = Spec.sqR (Spec.rMean (ft x0) (wdOf x1)) i j := by
  have h33 : ∀ k : Fin 64, idx_main_v31 (idx_main_v33 (idx_main_v37 (ix2 i j) k)) = ix2 i k := fun k => funext fun a => by
    match a with
    | ⟨0, _⟩ => rfl
    | ⟨1, _⟩ => rfl
  have h34 : ∀ k : Fin 64, idx_main_v32 (idx_main_v34 (idx_main_v37 (ix2 i j) k)) = ix2 j k := fun k => funext fun a => by
    match a with
    | ⟨0, _⟩ => rfl
    | ⟨1, _⟩ => rfl
  rw [val_main_v37_apply, val_main_cst_7_apply, Ideal.ofBits_def, Ideal.ofBits_zero_f32, zero_add]
  unfold Spec.sqR
  refine Finset.sum_congr rfl fun k _ => ?_
  rw [val_main_v36_apply, val_main_v35_apply, val_main_v33_apply, val_main_v34_apply, val_main_v31_apply,
    val_main_v32_apply, h33, h34, mean_at, mean_at, Ideal.mulf_def, Ideal.subf_def]

/-- The identity mask at `(i, j)` selects its first branch exactly on the diagonal. -/
theorem mask_at {α : Type} (i j : Fin 128) (A B : α) :
    Scalar.select (val_main_v42 (F := Ideal) (ix2 i j)) A B = if i = j then A else B := by
  rw [val_main_v42_apply, val_main_v41_apply, val_main_v38_apply, val_main_v39_apply, val_main_v40_apply, val_main_c_8_apply]
  show Scalar.select (IntOp.cmpi .eq (BitVec.ofNat 32 i.val + 0#32) (BitVec.ofNat 32 j.val)) A B = _
  rw [BitVec.add_zero]
  by_cases h : i = j
  · subst h
    rw [if_pos rfl]
    have : IntOp.cmpi .eq (BitVec.ofNat 32 i.val) (BitVec.ofNat 32 i.val) = 1#1 := by
      show BitVec.ofBool (BitVec.ofNat 32 i.val == BitVec.ofNat 32 i.val) = 1#1
      rw [beq_self_eq_true]; rfl
    rw [this, select_one]
  · rw [if_neg h]
    have hne : BitVec.ofNat 32 i.val ≠ BitVec.ofNat 32 j.val := fun he => h (by
      have := congrArg BitVec.toNat he
      rw [BitVec.toNat_ofNat, BitVec.toNat_ofNat, Nat.mod_eq_of_lt (by have := i.isLt; omega),
        Nat.mod_eq_of_lt (by have := j.isLt; omega)] at this
      exact Fin.ext this)
    have : IntOp.cmpi .eq (BitVec.ofNat 32 i.val) (BitVec.ofNat 32 j.val) = 0#1 := by
      show BitVec.ofBool (BitVec.ofNat 32 i.val == BitVec.ofNat 32 j.val) = 0#1
      rw [beq_eq_false_iff_ne.2 hne]; rfl
    rw [this, select_zero]

/-- One pair's term of the distance loss. -/
theorem dl_at (i j : Fin 128) :
    val_main_v49 (F := Ideal) x0 x1 (ix2 i j) = Spec.dlOf (Spec.sqR (Spec.rMean (ft x0) (wdOf x1)) i j) i j := by
  rw [val_main_v49_apply, mask_at, val_main_call4_v1_apply, val_main_call4_v0_apply, val_main_cst_11_apply,
    val_main_v48_apply, val_main_v47_apply, val_main_v46_apply, val_main_v45_apply, val_main_cst_10_apply,
    val_main_v44_apply, val_main_v43_apply, mask_at, val_main_call2_v1_apply, val_main_call2_v0_apply,
    val_main_cst_9_apply, sq_at, val_main_call3_v0_apply, val_main_call3_cst_apply]
  simp only [Ideal.ofBits_def, Ideal.ofBits_zero_f32, Ideal.mulf_def, Ideal.subf_def, Ideal.maximumf_def,
    Ideal.hostUnary_sqrt_def]
  rfl

/-- The distance loss: all pairs' terms, summed and divided by 16256. -/
theorem dlsum_at (i : S_.Idx) : val_main_v51 (F := Ideal) x0 x1 i = Spec.rDL (ft x0) (wdOf x1) := by
  rw [val_main_v51_apply, val_main_v50_apply, val_main_cst_12_apply, val_main_cst_13_apply, Ideal.ofBits_def,
    Ideal.ofBits_def, Ideal.ofBits_zero_f32, zero_add, Ideal.hostDivf_def, sum_idx2]
  unfold Spec.rDL
  refine congrArg (fun t => Ideal.div t Spec.c16256) ?_
  exact Finset.sum_congr rfl fun a _ => Finset.sum_congr rfl fun b _ => dl_at x0 x1 a b

/-- The program's result: the two losses added. -/
theorem res_at (i : S_.Idx) :
    val_main_v52 (F := Ideal) x0 x1 i = Spec.refResult (ft x0) (wdOf x1) (gOf (wdOf x1)) := by
  rw [val_main_v52_apply, vl_at, dlsum_at, Ideal.addf_def]
  unfold Spec.refResult
  rfl

end Stages

/-- The program's result term is the plain loss of the launch memory's features and cluster words. -/
theorem ref_value (m : (ℓ : Loc nD τ sig) → Buf (Elt Ideal) ℓ) (c : Dev nD) :
    (Cert.ReferenceIdeal.Value.res_main_v52 (F := Ideal) m c : S_.Idx → EReal)
      = fun _ => Spec.refResult (featM m c) (idsM m c) (gOf (idsM m c)) := by
  rw [Cert.ReferenceIdeal.Read.val_main_v52_eq]
  funext i
  exact res_at _ _ i

end Cert.ReferenceIdeal.RV

end
-- ==== Proof.PreDecode.lean ====
/-
  What the precondition says of the inputs: every feature is a real number, and every cluster number below 128 is the
  word of at least one row (the count of rows whose word equals it, a sum of widened comparison bits, is at least one).
-/
import proofs.«416575_j4896262717860_3_alg».proof.Proof.Gen.Pre_finite_inputs
import proofs.«416575_j4896262717860_3_alg».proof.Proof.Spec
import Idealize.ShloMosaic.Lib.ValueIdx
import Idealize.ShloMosaic.Lib.ReduceAll
import Idealize.ShloMosaic.Lib.StableHlo.Predicate
import Idealize.ShloMosaic.Lib.Pipeline.Value

noncomputable section

namespace Cert.PreDecode

open Cert.Pre_finite_inputs Idealize.ShloMosaic Idealize.ShloMosaic.ValueIdx

variable [Cert.Pre_finite_inputs.Facts]

/-- The scalar shape has one index, so a conjunction over all axes lands on it. -/
instance instSubsingletonScalarIdx : Subsingleton S_.Idx := ⟨fun a b => funext fun d => d.elim0⟩

/-- Under the precondition every feature is a real number: the precondition is a conjunction whose first half is the
    conjunction over all entries of "|x| is below +∞"; the word 0x7F800000 denotes +∞, and an extended real whose absolute
    value max x (−x) is below +∞ is neither +∞ nor −∞. -/
theorem finite_of_pre (x : FVec Ideal S1000000x64 .f32) (lab : IVec S1000000x2 32)
    (h : Cert.Pre_finite_inputs.fn (F := Ideal) x lab = fun _ => 1#1) (n : Fin 1000000) (f : Fin 64) :
    ∃ r : ℝ, x (ix2 n f) = (r : EReal) := by
  have e := congrFun h ValueIdx.ix0
  dsimp only [Cert.Pre_finite_inputs.fn] at e
  obtain ⟨e1, -⟩ := IntOp.andi_eq_one.1 e
  have e3 := Host.reduce_andi_all _ _ _ _ _ e1 (ix2 n f)
  have hinf : Ideal.ofBits .f32 0x7F800000#32 = (⊤ : EReal) := by simp [Ideal.ofBits, Ideal.ieee]
  have e4 : Ideal.cmp .olt (max (x (ix2 n f)) (-(x (ix2 n f)))) (Ideal.ofBits .f32 0x7F800000#32) = 1#1 := e3
  rw [hinf] at e4
  simp only [Ideal.cmp, StableHlo.Predicate.ofBool_eq_one_iff, decide_eq_true_eq] at e4
  have h1 : x (ix2 n f) ≠ (⊤ : EReal) := fun ht => by rw [ht] at e4; simp at e4
  have h2 : x (ix2 n f) ≠ (⊥ : EReal) := fun hb => by rw [hb] at e4; simp at e4
  exact ⟨EReal.toReal (x (ix2 n f)), (EReal.coe_toReal h1 h2).symm⟩

open StableHlo.Predicate in
/-- The comparison bit at row `p`, column `q` is set exactly when row `p`'s cluster word (column 1 of the labels) is the
    word of `q`: the left operand, read at (p, q), is the sliced column at row `p` (two broadcasts, a cast that drops the
    unit axis, and the slice at offset 1); the right operand is the position `q` as a word. -/
theorem mask_iff (lab : IVec S1000000x2 32) (p : Fin 1000000) (q : Fin 128) :
    cmpi CmpIPredicate.eq
      (broadcastInDim S1000000x128 ![0, 1] Facts.bcast_S1000000x1_S1000000x128_0_1
        (broadcastInDim S1000000x1 ![0] Facts.bcast_S1000000_S1000000x1_0
          (shapeCast S1000000 (extractStridedSlice S1000000x1 ![0, 1] lab Facts.slices_S1000000x2_S1000000x1_0_1)
            Facts.shapeCasts_S1000000x1_S1000000)))
      (broadcastInDim S1000000x128 ![0, 1] Facts.bcast_S1x128_S1000000x128_0_1
        (broadcastInDim S1x128 ![1] Facts.bcast_S128_S1x128_1 (iotaInDim S128 32 0)))
      (ij p q) = 1#1 ↔ lab (ix2 p 1) = BitVec.ofNat 32 q.val := by
  show IntOp.cmpi .eq _ _ = 1#1 ↔ _
  rw [cmpi_eq_iff, bcast_of_col, bcast_col1, bcast_of_row, bcast_row1, iota_apply]
  -- row p of the [1000000] vector is row p, column 0 of the [1000000 × 1] slice: the same row-major position p·1 + 0
  have hs : shapeCast S1000000 (extractStridedSlice S1000000x1 ![0, 1] lab Facts.slices_S1000000x2_S1000000x1_0_1)
      Facts.shapeCasts_S1000000x1_S1000000 (Shape.Idx.ofFin p) = lab (ix2 p 1) := by
    rw [shapeCast_apply _ _ (Shape.Idx.ofFin p) (ixP p) (by rw [Shape.rowMajor_val_two, Shape.rowMajor_val_one]; simp)]
    -- and that entry of the slice is the labels at (p, 0 + 1)
    exact extractStridedSlice_apply _ _ _ _ (ix2 p 1) (fun a => by
      match a with
      | ⟨0, _⟩ => exact (Nat.zero_add _).symm
      | ⟨1, _⟩ => rfl)
  rw [hs]

/-- Under the precondition every cluster number is some row's word: the second half of the precondition is the
    conjunction over the 128 columns of "the column's count is at least 1"; the count at column `k` is the number of
    rows whose comparison bit is set there (at most a million, so it reads the same signed and unsigned), a positive
    number of rows has a member, and that row's word is the word of `k`. -/
theorem nonempty_of_pre (x : FVec Ideal S1000000x64 .f32) (lab : IVec S1000000x2 32)
    (h : Cert.Pre_finite_inputs.fn (F := Ideal) x lab = fun _ => 1#1) (k : Fin 128) :
    ∃ n : Fin 1000000, lab (ix2 n 1) = Spec.wd k := by
  have e := congrFun h ValueIdx.ix0
  dsimp only [Cert.Pre_finite_inputs.fn] at e
  obtain ⟨-, e2⟩ := IntOp.andi_eq_one.1 e
  have e5 := Host.reduce_andi_all _ _ _ _ _ e2 (Shape.Idx.ofFin k)
  generalize hm : cmpi CmpIPredicate.eq _ _ = mask at e5
  have hc := StableHlo.Predicate.toNat_reduce_count_rows (n := 1000000) (m := 128) (by norm_num) mask
    Facts.natLt_1_32 Facts.reducesTo_S1000000x128_S128_d0 Facts.h_S_ (Shape.Idx.ofFin k)
  have e6 : IntOp.cmpi .sge (Host.reduce IntOp.addi (extui 32 mask Facts.natLt_1_32) (constantI S_ 32 0#32)
      Facts.reducesTo_S1000000x128_S128_d0 Facts.h_S_ (Shape.Idx.ofFin k)) 1#32 = 1#1 := e5
  have hle : (Finset.univ.filter (fun p : Fin 1000000 =>
      mask (StableHlo.Predicate.ij p (Shape.Idx.ofFin k 0)) = 1#1)).card ≤ 1000000 :=
    le_trans (Finset.card_le_univ _) (by simp)
  rw [StableHlo.Predicate.sge_iff_toNat (by rw [hc]; omega) (by decide), hc] at e6
  have hpos : 0 < (Finset.univ.filter (fun p : Fin 1000000 =>
      mask (StableHlo.Predicate.ij p (Shape.Idx.ofFin k 0)) = 1#1)).card :=
    lt_of_lt_of_le (by decide) e6
  obtain ⟨p, hp⟩ := Finset.card_pos.1 hpos
  have hp2 := (Finset.mem_filter.1 hp).2
  rw [Shape.Idx.ofFin_zero] at hp2
  subst hm
  exact ⟨p, (mask_iff lab p k).1 hp2⟩

end Cert.PreDecode

end
-- ==== Proof.AlgebraGram.lean ====
/-
  The pairwise term. With finite features and at least one row in every cluster each mean is a real number; for real
  means |a|² + |b|² − 2⟨a,b⟩ is the sum of squared differences, which is not negative, so clipping it at zero changes
  nothing. Hence each row of the tiled distance loss is the plain one's row.
-/
import proofs.«416575_j4896262717860_3_alg».proof.Proof.Spec
import Mathlib.Algebra.BigOperators.Fin
import Mathlib.Analysis.SpecialFunctions.Pow.Real

noncomputable section

namespace Cert.Spec

open Idealize.ShloMosaic

variable (feat : Fin 1000000 → Fin 64 → EReal) (ids : Fin 1000000 → BitVec 32)

/-- The word 0x40000000 denotes two. -/
theorem cTwo_eq : cTwo = 2 := by
  show Ideal.ofBits .f32 0x40000000#32 = 2
  simp [Ideal.ofBits, Ideal.ieee, -EReal.coe_mul]; norm_num
  rfl

/-- A finite sum of real numbers, read in the extended reals, is the real sum. -/
theorem coe_sum_real {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- With finite features and a row in every cluster, every mean is a real number. -/
theorem rMean_real (hfin : ∀ n f, ∃ x : ℝ, feat n f = (x : EReal)) (hne : ∀ k : Fin 128, ∃ n, ids n = wd k)
    (k : Fin 128) (f : Fin 64) : ∃ x : ℝ, rMean feat ids k f = (x : EReal) := by
  choose x hx using hfin
  -- the feature sum of the cluster is a real number
  have hsm : sm feat ids k f = ((∑ n : Fin 1000000, (if ids n = wd k then x n f else 0) : ℝ) : EReal) := by
    unfold sm
    rw [← coe_sum_real]
    refine Finset.sum_congr rfl (fun n _ => ?_)
    by_cases h : ids n = wd k
    · rw [if_pos h, if_pos h, hx]
    · rw [if_neg h, if_neg h, EReal.coe_zero]
  -- the count of the cluster is a real number
  have hcnt : cnt ids k = ((∑ n : Fin 1000000, (if ids n = wd k then (1 : ℝ) else 0) : ℝ) : EReal) := by
    unfold cnt
    rw [← coe_sum_real]
    refine Finset.sum_congr rfl (fun n _ => ?_)
    by_cases h : ids n = wd k
    · rw [if_pos h, if_pos h, EReal.coe_one]
    · rw [if_neg h, if_neg h, EReal.coe_zero]
  -- and it is positive, because the cluster has a row
  have hpos : (∑ n : Fin 1000000, (if ids n = wd k then (1 : ℝ) else 0)) ≠ 0 := by
    obtain ⟨n0, hn0⟩ := hne k
    have hlt : (0 : ℝ) < ∑ n : Fin 1000000, (if ids n = wd k then (1 : ℝ) else 0) := by
      refine Finset.sum_pos' (fun n _ => ?_) ⟨n0, Finset.mem_univ _, ?_⟩
      · by_cases h : ids n = wd k
        · rw [if_pos h]; exact zero_le_one
        · rw [if_neg h]
      · rw [if_pos hn0]; exact zero_lt_one
    exact hlt.ne'
  unfold rMean
  rw [hsm, hcnt, Ideal.div_coe hpos, ← EReal.coe_mul]
  exact ⟨_, rfl⟩

/-- For real means the clipped Gram form is the sum of squared differences. -/
theorem sqK_eq_sqR (mu : Fin 128 → Fin 64 → EReal) (hmu : ∀ k f, ∃ x : ℝ, mu k f = (x : EReal)) (i j : Fin 128) :
    sqK mu i j = sqR mu i j := by
  choose m hm using hmu
  -- every inner product of two means is the real inner product
  have e1 : ∀ a b : Fin 128,
      (∑ f : Fin 64, mu a f * mu b f) = ((∑ f : Fin 64, m a f * m b f : ℝ) : EReal) := by
    intro a b
    rw [← coe_sum_real]
    refine Finset.sum_congr rfl (fun f _ => ?_)
    rw [hm, hm, EReal.coe_mul]
  -- the sum of squared differences is the real one
  have e2 : sqR mu i j = ((∑ f : Fin 64, (m i f - m j f) * (m i f - m j f) : ℝ) : EReal) := by
    unfold sqR
    rw [← coe_sum_real]
    refine Finset.sum_congr rfl (fun f _ => ?_)
    rw [hm, hm, ← EReal.coe_sub, ← EReal.coe_mul]
  -- in the reals: |a|² + |b|² − 2⟨a,b⟩ = ∑ (a − b)²
  have key : (∑ f : Fin 64, m i f * m i f) + (∑ f : Fin 64, m j f * m j f) - 2 * (∑ f : Fin 64, m i f * m j f)
      = ∑ f : Fin 64, (m i f - m j f) * (m i f - m j f) := by
    rw [Finset.mul_sum, ← Finset.sum_add_distrib, ← Finset.sum_sub_distrib]
    exact Finset.sum_congr rfl (fun f _ => by ring)
  have h2 : (2 : EReal) = ((2 : ℝ) : EReal) := rfl
  unfold sqK
  rw [e1, e1, e1, cTwo_eq, e2, h2, ← EReal.coe_mul, ← EReal.coe_add, ← EReal.coe_sub, key]
  -- a sum of squares is not negative, so the clip at zero is the identity
  refine max_eq_left ?_
  exact EReal.coe_nonneg.mpr (Finset.sum_nonneg (fun f _ => mul_self_nonneg _))

/-- So the tiled row sums, summed, are the plain sum over all pairs. -/
theorem rowsum_eq (mu : Fin 128 → Fin 64 → EReal) (hmu : ∀ k f, ∃ x : ℝ, mu k f = (x : EReal)) :
    ∑ i : Fin 128, rowsumK mu i = ∑ i : Fin 128, ∑ j : Fin 128, dlOf (sqR mu i j) i j := by
  refine Finset.sum_congr rfl (fun i _ => ?_)
  unfold rowsumK
  refine Finset.sum_congr rfl (fun j _ => ?_)
  rw [sqK_eq_sqR mu hmu]

end Cert.Spec

end
-- ==== Proof.Algebra.lean ====
/-
  The two losses agree when every feature is finite and every cluster has a row: the variance losses by re-indexing the
  rows and dropping the guard that never binds, the distance losses by the Gram identity on real means.
-/
import proofs.«416575_j4896262717860_3_alg».proof.Proof.AlgebraSums
import proofs.«416575_j4896262717860_3_alg».proof.Proof.AlgebraGram

noncomputable section

namespace Cert.Spec

open Idealize.ShloMosaic

variable (feat : Fin 1000000 → Fin 64 → EReal) (ids : Fin 1000000 → BitVec 32)

theorem kDL_eq (hfin : ∀ n f, ∃ x : ℝ, feat n f = (x : EReal)) (hne : ∀ k : Fin 128, ∃ n, ids n = wd k) :
    kDL feat ids = rDL feat ids := by
  unfold kDL rDL
  rw [kMean_eq feat ids hne, rowsum_eq _ (rMean_real feat ids hfin hne)]

theorem kernelResult_eq_refResult (hfin : ∀ n f, ∃ x : ℝ, feat n f = (x : EReal))
    (hne : ∀ k : Fin 128, ∃ n, ids n = wd k) (g : Fin 1000000 → Fin 128) (hg : ∀ n k, ids n = wd k → g n = k) :
    kernelResult feat ids = refResult feat ids g := by
  unfold kernelResult refResult
  rw [kVL_eq feat ids hne g hg, kDL_eq feat ids hfin hne]

end Cert.Spec

end
-- ==== Proof.lean ====
/-
  The clustering loss computed two ways agrees over the extended reals.

  Both programs take a million rows of 64 features and a cluster word per row (column 1 of the label pairs) and return
  a variance loss plus a pairwise-distance loss of the 128 cluster means. The tiled program makes two passes over the
  rows in 2 halves × 50 tiles, dividing by counts guarded from below by one, and gets the pairwise squared distances of
  the means from their Gram matrix; the plain program scatters and gathers by the cluster words and divides by the bare
  counts. Under the precondition — finite features, and every cluster number below 128 the word of at least one row,
  outside which the plain program divides zero by zero — the guard never binds and every mean is a real number, and the
  two results are the same extended real:
    * each pass's result array is read off the pipeline's run, tile by tile (Region0, Region1, Region2), and the host
      operations between the passes are read at an index (KHost);
    * the plain program's scatters and gather are read at an index (RefValue);
    * the sums over halves, tiles and rows are the sums over all rows, a row of cluster k reads row k of the table of
      means either way, and for real means |a|² + |b|² − 2⟨a,b⟩ is the sum of squared differences (Algebra).
  The idealization rewrote nothing, so the word-level program is its own idealization.
-/
import proofs.«416575_j4896262717860_3_alg».proof.Defs
import proofs.«416575_j4896262717860_3_alg».proof.Proof.Gen.Kernel
import proofs.«416575_j4896262717860_3_alg».proof.Proof.Gen.Kernel.Skeleton
import proofs.«416575_j4896262717860_3_alg».proof.Proof.Gen.Kernel.Launch
import proofs.«416575_j4896262717860_3_alg».proof.Proof.Gen.Kernel.Points
import proofs.«416575_j4896262717860_3_alg».proof.Proof.Gen.Kernel.Frame
import proofs.«416575_j4896262717860_3_alg».proof.Proof.Gen.KernelIdeal
import proofs.«416575_j4896262717860_3_alg».proof.Proof.Gen.KernelIdeal.Skeleton
import proofs.«416575_j4896262717860_3_alg».proof.Proof.Gen.KernelIdeal.Launch
import proofs.«416575_j4896262717860_3_alg».proof.Proof.Gen.KernelIdeal.Points
import proofs.«416575_j4896262717860_3_alg».proof.Proof.Gen.KernelIdeal.Frame
import proofs.«416575_j4896262717860_3_alg».proof.Proof.Gen.ReferenceIdeal
import proofs.«416575_j4896262717860_3_alg».proof.Proof.Gen.ReferenceIdeal.Run
import proofs.«416575_j4896262717860_3_alg».proof.Proof.Gen.Pre_finite_inputs
import proofs.«416575_j4896262717860_3_alg».proof.Proof.KRun
import proofs.«416575_j4896262717860_3_alg».proof.Proof.KHost
import proofs.«416575_j4896262717860_3_alg».proof.Proof.RefValue
import proofs.«416575_j4896262717860_3_alg».proof.Proof.PreDecode
import proofs.«416575_j4896262717860_3_alg».proof.Proof.Algebra
import Idealize.ShloMosaic.Adequacy
import Idealize.ShloMosaic.Init

noncomputable section

namespace Cert.Proof

open Idealize.ShloMosaic Idealize.ShloMosaic.ValueIdx Idealize.SL.Sem

/-- The word-level program runs and leaves its arguments alone: its generated frame. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The plain program's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the features and the label pairs, the tiled program ends at the tiled loss and the plain
    program at the plain loss of the same features and cluster words; under the precondition these are one number. -/
theorem algebraic : Cert.algebraic_KernelIdeal_ReferenceIdeal := by
  intro m ρ m' ρ' hpre hagree
  refine ⟨fun c => (fun _ => Cert.Spec.kernelResult (Cert.KernelIdeal.KV.featM m c) (Cert.KernelIdeal.KV.idsM m c) :
      Cert.KernelIdeal.S_.Idx → EReal), ?_, ?_⟩
  · exact (θ_run Cert.KernelIdeal.defs _ _).mono
      (fun _ h c => ⟨(h c).1.trans (Cert.KernelIdeal.KH.kernel_value m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    have hf : Cert.ReferenceIdeal.RV.featM m' c = Cert.KernelIdeal.KV.featM m c := by
      funext n f
      unfold Cert.ReferenceIdeal.RV.featM Cert.KernelIdeal.KV.featM
      rw [(hagree c).1]
    have hi : Cert.ReferenceIdeal.RV.idsM m' c = Cert.KernelIdeal.KV.idsM m c := by
      funext n
      unfold Cert.ReferenceIdeal.RV.idsM Cert.KernelIdeal.KV.idsM
      rw [(hagree c).2]
    have hfin : ∀ n f, ∃ x : ℝ, Cert.KernelIdeal.KV.featM m c n f = (x : EReal) := fun n f =>
      Cert.PreDecode.finite_of_pre _ _ (hpre c) n f
    have hne : ∀ k : Fin 128, ∃ n, Cert.KernelIdeal.KV.idsM m c n = Cert.Spec.wd k := fun k =>
      Cert.PreDecode.nonempty_of_pre _ _ (hpre c) k
    refine (Cert.ReferenceIdeal.RV.ref_value m' c).trans ?_
    rw [hf, hi]
    funext _
    exact (Cert.Spec.kernelResult_eq_refResult _ _ hfin hne _
      (Cert.ReferenceIdeal.RV.gOf_of_wd (Cert.KernelIdeal.KV.idsM m c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
